-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S64x512 : Shape := ⟨2, ![64, 512]⟩
abbrev S128x512 : Shape := ⟨2, ![128, 512]⟩
abbrev S128 : Shape := ⟨1, ![128]⟩
abbrev S64x256 : Shape := ⟨2, ![64, 256]⟩
abbrev S64 : Shape := ⟨1, ![64]⟩
abbrev S128x64 : Shape := ⟨2, ![128, 64]⟩
abbrev S2x1600000 : Shape := ⟨2, ![2, 1600000]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg11 : IVec S100000 32) (main_v48 : IVec S_ 1) (main_v50 : IVec S100000 1) : IVec S_ 1 :=
  let main_c_19 : IVec S_ 32 := constantI S_ 32 64#32
  let main_v51 : IVec S100000 32 := broadcastInDim S100000 ![] bcast_S_S100000 main_c_19
  let main_v52 : IVec S100000 1 := cmpi .slt main_arg11 main_v51
  let main_v53 : IVec S100000 1 := andi main_v50 main_v52
  let main_c_20 : IVec S_ 1 := constantI S_ 1 1#1
  let main_v54 : IVec S_ 1 := (fun x v => Host.reduce IntOp.andi x v reducesTo_S100000_S_d0 h_S_) main_v53 main_c_20
  let main_v55 : IVec S_ 1 := andi main_v48 main_v54
  main_v55

def fn_part2 {F : FTy → Type} [FloatOps F] (main_arg7 : FVec F S128x64 .f32) (main_arg8 : FVec F S128 .f32) (main_arg9 : FVec F S128 .f32) (main_arg11 : IVec S100000 32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S100000 32 := broadcastInDim S100000 ![] bcast_S_S100000 main_c_18
  let main_v50 : IVec S100000 1 := cmpi .sge main_arg11 main_v49
  fn_part3 (F := F) main_arg11 main_v48 main_v50

def fn_part1 {F : FTy → Type} [FloatOps F] (main_arg4 : FVec F S128 .f32) (main_arg5 : FVec F S64x256 .f32) (main_arg6 : FVec F S64 .f32) (main_arg7 : FVec F S128x64 .f32) (main_arg8 : FVec F S128 .f32) (main_arg9 : FVec F S128 .f32) (main_arg11 : IVec S100000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg11 main_v33

def fn {F : FTy → Type} [FloatOps F] (main_arg0 : FVec F S100000x256 .f32) (main_arg1 : FVec F S64x512 .f32) (main_arg2 : FVec F S128x512 .f32) (main_arg3 : FVec F S128 .f32) (main_arg4 : FVec F S128 .f32) (main_arg5 : FVec F S64x256 .f32) (main_arg6 : FVec F S64 .f32) (main_arg7 : FVec F S128x64 .f32) (main_arg8 : FVec F S128 .f32) (main_arg9 : FVec F S128 .f32) (main_arg10 : IVec S2x1600000 32) (main_arg11 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg11 main_v13 main_v16
-- ==== Kernel.lean ====
abbrev S100000x256 : Shape := ⟨2, ![100000, 256]⟩
abbrev S64x512 : Shape := ⟨2, ![64, 512]⟩
abbrev S128x512 : Shape := ⟨2, ![128, 512]⟩
abbrev S128 : Shape := ⟨1, ![128]⟩
abbrev S64x256 : Shape := ⟨2, ![64, 256]⟩
abbrev S64 : Shape := ⟨1, ![64]⟩
abbrev S128x64 : Shape := ⟨2, ![128, 64]⟩
abbrev S2x1600000 : Shape := ⟨2, ![2, 1600000]⟩
abbrev S100000 : Shape := ⟨1, ![100000]⟩
abbrev S128x1 : Shape := ⟨2, ![128, 1]⟩
abbrev S_ : Shape := ⟨0, ![]⟩
abbrev S512x128 : Shape := ⟨2, ![512, 128]⟩
abbrev S64x128 : Shape := ⟨2, ![64, 128]⟩
abbrev S1x128 : Shape := ⟨2, ![1, 128]⟩
abbrev S64x64 : Shape := ⟨2, ![64, 64]⟩
abbrev S100000x1 : Shape := ⟨2, ![100000, 1]⟩
abbrev S256x64 : Shape := ⟨2, ![256, 64]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S2000x64 : Shape := ⟨2, ![2000, 64]⟩
abbrev S1x64 : Shape := ⟨2, ![1, 64]⟩
abbrev S2000 : Shape := ⟨1, ![2000]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩

abbrev nBuf : Space → Nat
  | .hbm => 71
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S64x512, .f32⟩
  | .hbm, ⟨2, _⟩ => ⟨S128x512, .f32⟩
  | .hbm, ⟨3, _⟩ => ⟨S128, .f32⟩
  | .hbm, ⟨4, _⟩ => ⟨S128, .f32⟩
  | .hbm, ⟨5, _⟩ => ⟨S64x256, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S128, .f32⟩
  | .hbm, ⟨10, _⟩ => ⟨S2x1600000, .i32⟩
  | .hbm, ⟨11, _⟩ => ⟨S100000, .i32⟩
  | .hbm, ⟨12, _⟩ => ⟨S128x1, .f32⟩
  | .hbm, ⟨13, _⟩ => ⟨S128x512, .f32⟩
  | .hbm, ⟨14, _⟩ => ⟨S128x512, .f32⟩
  | .hbm, ⟨15, _⟩ => ⟨S128x512, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S128x1, .f32⟩
  | .hbm, ⟨20, _⟩ => ⟨S128x512, .f32⟩
  | .hbm, ⟨21, _⟩ => ⟨S128x512, .f32⟩
  | .hbm, ⟨22, _⟩ => ⟨S512x128, .f32⟩
  | .hbm, ⟨23, _⟩ => ⟨S64x128, .f32⟩
  | .hbm, ⟨24, _⟩ => ⟨S1x128, .f32⟩
  | .hbm, ⟨25, _⟩ => ⟨S64x128, .f32⟩
  | .hbm, ⟨26, _⟩ => ⟨S64x128, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S100000x1, .i32⟩
  | .hbm, ⟨33, _⟩ => ⟨S128x1, .f32⟩
  | .hbm, ⟨34, _⟩ => ⟨S128x64, .f32⟩
  | .hbm, ⟨35, _⟩ => ⟨S128x64, .f32⟩
  | .hbm, ⟨36, _⟩ => ⟨S128x64, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S128x1, .f32⟩
  | .hbm, ⟨41, _⟩ => ⟨S128x64, .f32⟩
  | .hbm, ⟨42, _⟩ => ⟨S128x64, .f32⟩
  | .hbm, ⟨43, _⟩ => ⟨S64x128, .f32⟩
  | .hbm, ⟨44, _⟩ => ⟨S256x64, .f32⟩
  | .hbm, ⟨45, _⟩ => ⟨S100000x128, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S100000x1, .f32⟩
  | .hbm, ⟨70, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S2000x1, .i32⟩
  | .local _ .vmem, ⟨3, _⟩ => ⟨S2000x1, .i32⟩
  | .local _ .vmem, ⟨4, _⟩ => ⟨S64x64, .f32⟩
  | .local _ .vmem, ⟨5, _⟩ => ⟨S64x64, .f32⟩
  | .local _ .vmem, ⟨6, _⟩ => ⟨S256x64, .f32⟩
  | .local _ .vmem, ⟨7, _⟩ => ⟨S64, .f32⟩
  | .local _ .vmem, ⟨8, _⟩ => ⟨S64x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S2000x128, .f32⟩
  | .local _ .vmem, ⟨17, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c : Ref sig .tc := ⟨.hbm, 50, rfl⟩
abbrev main_v29 : Ref sig .tc := ⟨.hbm, 51, rfl⟩
abbrev main_v30 : Ref sig .tc := ⟨.hbm, 52, rfl⟩
abbrev main_c_0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_1 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  reducesTo_S128x512_S128_d1 : S128x512.ReducesTo [1] S128
  h_S_ : 0 < S_.numel
  transposes_S128x512_S512x128_1_0 : S128x512.Transposes [1, 0] S512x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  slices_S64x128_S64x64_0_0 : S64x128.Slices ![0, 0] S64x64
  slices_S64x128_S64x64_0_64 : S64x128.Slices ![0, 64] S64x64
  bcast_S_S64x64 : S_.BroadcastsInDim S64x64 (![] : Fin 0 → Fin S64x64.rank)
  shapeCasts_S100000_S100000x1 : S100000.ShapeCasts S100000x1
  bcast_S128x1_S128x64_0_1 : S128x1.BroadcastsInDim S128x64 (![0, 1] : Fin 2 → Fin S128x64.rank)
  reducesTo_S128x64_S128_d1 : S128x64.ReducesTo [1] S128
  transposes_S128x64_S64x128_1_0 : S128x64.Transposes [1, 0] S64x128
  transposes_S64x256_S256x64_1_0 : S64x256.Transposes [1, 0] S256x64
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  iota_S2000x64_d1_w32 : S2000x64.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  natLt_1_32 : 1 < 32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S2000x128_S2000x128 : S2000x128.ShapeCasts S2000x128
  broadcasts_S2000x1_S2000x128 : S2000x1.Broadcasts S2000x128
  dot_S64x512_S512x128_S64x128_1_0_0_1_n_n_wf : DotDims.WF S64x512 S512x128 S64x128 [1] [0] [0] [1] [] []
  dot_S2000x256_S256x64_S2000x64_1_0_0_1_n_n_wf : DotDims.WF S2000x256 S256x64 S2000x64 [1] [0] [0] [1] [] []
  dot_S2000x64_S64x64_S2000x64_1_0_0_1_n_n_wf : DotDims.WF S2000x64 S64x64 S2000x64 [1] [0] [0] [1] [] []
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .i32 = 32 ∨ (Rect.block (s := S100000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S64x512 : Shape := ⟨2, ![64, 512]⟩
abbrev S128x512 : Shape := ⟨2, ![128, 512]⟩
abbrev S128 : Shape := ⟨1, ![128]⟩
abbrev S64x256 : Shape := ⟨2, ![64, 256]⟩
abbrev S64 : Shape := ⟨1, ![64]⟩
abbrev S128x64 : Shape := ⟨2, ![128, 64]⟩
abbrev S2x1600000 : Shape := ⟨2, ![2, 1600000]⟩
abbrev S100000 : Shape := ⟨1, ![100000]⟩
abbrev S128x1 : Shape := ⟨2, ![128, 1]⟩
abbrev S_ : Shape := ⟨0, ![]⟩
abbrev S512x128 : Shape := ⟨2, ![512, 128]⟩
abbrev S64x128 : Shape := ⟨2, ![64, 128]⟩
abbrev S1x128 : Shape := ⟨2, ![1, 128]⟩
abbrev S64x64 : Shape := ⟨2, ![64, 64]⟩
abbrev S256x64 : Shape := ⟨2, ![256, 64]⟩
abbrev S100000x64 : Shape := ⟨2, ![100000, 64]⟩
abbrev S1x64 : Shape := ⟨2, ![1, 64]⟩
abbrev S100000x1 : Shape := ⟨2, ![100000, 1]⟩
abbrev S100000x128 : Shape := ⟨2, ![100000, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩

abbrev nBuf : Space → Nat
  | .hbm => 130
  | .vmem => 0
  | .smem => 0
  | _ => 0

abbrev hbmTy0_0 (i : Nat) : BufTy := match i % 128 with
  | 0 => ⟨S100000x256, .f32⟩
  | 1 => ⟨S64x512, .f32⟩
  | 2 => ⟨S128x512, .f32⟩
  | 3 => ⟨S128, .f32⟩
  | 4 => ⟨S128, .f32⟩
  | 5 => ⟨S64x256, .f32⟩
  | 6 => ⟨S64, .f32⟩
  | 7 => ⟨S128x64, .f32⟩
  | 8 => ⟨S128, .f32⟩
  | 9 => ⟨S128, .f32⟩
  | 10 => ⟨S2x1600000, .i32⟩
  | 11 => ⟨S100000, .i32⟩
  | 12 => ⟨S128x1, .f32⟩
  | 13 => ⟨S128x512, .f32⟩
  | 14 => ⟨S128x512, .f32⟩
  | 15 => ⟨S128x512, .f32⟩
  | 16 => ⟨S_, .f32⟩
  | 17 => ⟨S128, .f32⟩
  | 18 => ⟨S128x1, .f32⟩
  | 19 => ⟨S128x1, .f32⟩
  | 20 => ⟨S128x512, .f32⟩
  | 21 => ⟨S128x512, .f32⟩
  | 22 => ⟨S512x128, .f32⟩
  | 23 => ⟨S64x128, .f32⟩
  | 24 => ⟨S1x128, .f32⟩
  | 25 => ⟨S64x128, .f32⟩
  | 26 => ⟨S64x128, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S256x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000, .f32⟩
  | 39 => ⟨S100000x1, .f32⟩
  | 40 => ⟨S_, .f32⟩
  | 41 => ⟨S100000x1, .f32⟩
  | 42 => ⟨S100000x1, .f32⟩
  | 43 => ⟨S100000x64, .f32⟩
  | 44 => ⟨S100000x64, .f32⟩
  | 45 => ⟨S100000x64, .f32⟩
  | 46 => ⟨S_, .f32⟩
  | 47 => ⟨S100000, .f32⟩
  | 48 => ⟨S100000x1, .f32⟩
  | 49 => ⟨S_, .f32⟩
  | 50 => ⟨S100000x1, .f32⟩
  | 51 => ⟨S100000x1, .f32⟩
  | 52 => ⟨S100000x64, .f32⟩
  | 53 => ⟨S100000x64, .f32⟩
  | 54 => ⟨S_, .f32⟩
  | 55 => ⟨S100000x1, .f32⟩
  | 56 => ⟨S100000x1, .f32⟩
  | 57 => ⟨S100000x1, .f32⟩
  | 58 => ⟨S100000x64, .f32⟩
  | 59 => ⟨S100000x64, .f32⟩
  | 60 => ⟨S_, .i32⟩
  | 61 => ⟨S100000, .i32⟩
  | 62 => ⟨S100000, .i1⟩
  | 63 => ⟨S_, .i32⟩
  | 64 => ⟨S100000, .i32⟩
  | 65 => ⟨S100000, .i32⟩
  | 66 => ⟨S100000, .i32⟩
  | 67 => ⟨S100000x1, .i32⟩
  | 68 => ⟨S100000x64, .f32⟩
  | 69 => ⟨S100000x64, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S128x1, .f32⟩
  | 84 => ⟨S128x64, .f32⟩
  | 85 => ⟨S128x64, .f32⟩
  | 86 => ⟨S128x64, .f32⟩
  | 87 => ⟨S_, .f32⟩
  | 88 => ⟨S128, .f32⟩
  | 89 => ⟨S128x1, .f32⟩
  | 90 => ⟨S128x1, .f32⟩
  | 91 => ⟨S128x64, .f32⟩
  | 92 => ⟨S128x64, .f32⟩
  | 93 => ⟨S64x128, .f32⟩
  | 94 => ⟨S100000x128, .f32⟩
  | 95 => ⟨S1x128, .f32⟩
  | 96 => ⟨S100000x128, .f32⟩
  | 97 => ⟨S100000x128, .f32⟩
  | 98 => ⟨S1x1600000, .i32⟩
  | 99 => ⟨S1600000, .i32⟩
  | 100 => ⟨S1x1600000, .i32⟩
  | 101 => ⟨S1600000, .i32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S_, .f32⟩
  | 116 => ⟨S1600000, .f32⟩
  | 117 => ⟨S_, .f32⟩
  | 118 => ⟨S100000, .f32⟩
  | 119 => ⟨S1600000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S_, .f32⟩
  | _ => ⟨S100000x256, .f32⟩

abbrev hbmTy0_1 (i : Nat) : BufTy := match i % 128 with
  | 0 => ⟨S100000x128, .f32⟩
  | 1 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call1_cst : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call2_v0 : Ref sig .tc := ⟨.hbm, 86, rfl⟩
abbrev main_call2_cst : Ref sig .tc := ⟨.hbm, 87, rfl⟩
abbrev main_call2_v1 : Ref sig .tc := ⟨.hbm, 88, rfl⟩
abbrev main_call2_v2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_8 : Ref sig .tc := ⟨.hbm, 102, rfl⟩
abbrev main_v70 : Ref sig .tc := ⟨.hbm, 103, rfl⟩
abbrev main_v71 : Ref sig .tc := ⟨.hbm, 104, rfl⟩
abbrev main_c_9 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_10 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_11 : Ref sig .tc := ⟨.hbm, 115, rfl⟩
abbrev main_v80 : Ref sig .tc := ⟨.hbm, 116, rfl⟩
abbrev main_cst_12 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_13 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_call3_cst : Ref sig .tc := ⟨.hbm, 127, rfl⟩
abbrev main_call3_v0 : Ref sig .tc := ⟨.hbm, 128, rfl⟩
abbrev main_v89 : Ref sig .tc := ⟨.hbm, 129, rfl⟩

abbrev nD : Nat := 1
abbrev τ : Topo := Topo.v7x

variable {F : FTy → Type} [FloatOps F]

class Facts₀ : Prop where
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  reducesTo_S128x512_S128_d1 : S128x512.ReducesTo [1] S128
  h_S_ : 0 < S_.numel
  transposes_S128x512_S512x128_1_0 : S128x512.Transposes [1, 0] S512x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  slices_S64x128_S64x64_0_0 : S64x128.Slices ![0, 0] S64x64
  slices_S64x128_S64x64_0_64 : S64x128.Slices ![0, 64] S64x64
  bcast_S_S64x64 : S_.BroadcastsInDim S64x64 (![] : Fin 0 → Fin S64x64.rank)
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000 : S_.BroadcastsInDim S100000 (![] : Fin 0 → Fin S100000.rank)
  bcast_S_S100000x64 : S_.BroadcastsInDim S100000x64 (![] : Fin 0 → Fin S100000x64.rank)
  bcast_S128x1_S128x64_0_1 : S128x1.BroadcastsInDim S128x64 (![0, 1] : Fin 2 → Fin S128x64.rank)
  reducesTo_S128x64_S128_d1 : S128x64.ReducesTo [1] S128
  transposes_S128x64_S64x128_1_0 : S128x64.Transposes [1, 0] S64x128
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  dot_S64x512_S512x128_S64x128_1_0_0_1_n_n_wf : DotDims.WF S64x512 S512x128 S64x128 [1] [0] [0] [1] [] []
  dot_S100000x256_S256x64_S100000x64_1_0_0_1_n_n_wf : DotDims.WF S100000x256 S256x64 S100000x64 [1] [0] [0] [1] [] []
  gather_S64x64_S100000x1_S100000x64_1_0_n_n_0_1_164_wf : GatherDims.WF S64x64 S100000x1 S100000x64 [1] [0] [] [0] [] 1 ![1, 64]
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Spec.lean ====
/-
  The mathematics both programs compute, row by row, on the extended reals.

  A node's row x (256 features) goes through: a linear map to 64 hidden units, h = x·Wf + bf; a layer
  normalisation without affine part, (h - mean h) scaled by the inverse root of (var h + eps), the mean and the
  variance taken over the 64 hidden units; a conditioning by the node's graph g, gamma_g ⊙ xn + beta_g, clipped
  below at 0; and a second linear map to 128 outputs, z·Wl + bl.  The kernel scales by `rsqrt` and looks the
  graph's rows up by a product with a one-hot row; the reference divides by `sqrt` and indexes the tables.
  Afterwards both programs average over incoming edges: an edge sum divided by the edge count clipped below at 1,
  clipped below at 0.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The literal shapes, spelt as the printed programs' abbreviations unfold. -/
abbrev Sh2 (a b : Nat) : Shape := ⟨2, ![a, b]⟩
abbrev Sh1 (a : Nat) : Shape := ⟨1, ![a]⟩

/-- The literals: 64 (the number of hidden units), the layer norm's epsilon, 0 and 1. -/
def c64 : EReal := Ideal.ofBits .f32 0x42800000#32
def eps : EReal := Ideal.ofBits .f32 0x3727C5AC#32
def zero : EReal := Ideal.ofBits .f32 0x00000000#32
def one : EReal := Ideal.ofBits .f32 0x3F800000#32

/-- Row `r` of the first linear map: h[c] = Σ_k x[r,k]·Wf[k,c] + bf[c]. -/
def hid {n : Nat} (nf : FVec Ideal (Sh2 n 256) .f32) (FwT : FVec Ideal (Sh2 256 64) .f32) (fb : FVec Ideal (Sh1 64) .f32)
    (r : Fin n) (c : Fin 64) : EReal :=
  (∑ k : Fin 256, nf (ix2 r k) * FwT (ix2 k c)) + fb (ix1 c)

/-- Mean and variance over the 64 hidden units (a quotient by the literal 64). -/
def mean (h : Fin 64 → EReal) : EReal := Ideal.div (∑ c : Fin 64, h c) c64
def var (h : Fin 64 → EReal) : EReal := Ideal.div (∑ c : Fin 64, (h c - mean h) * (h c - mean h)) c64

/-- The normalised row, the kernel's way (a product with the reciprocal root) and the reference's (a quotient by the root). -/
def xnK (h : Fin 64 → EReal) (c : Fin 64) : EReal := (h c - mean h) * Ideal.rsqrt (var h + eps)
def xnR (h : Fin 64 → EReal) (c : Fin 64) : EReal := Ideal.div (h c - mean h) (Ideal.sqrt (var h + eps))

/-- Entry `k` of the one-hot row of the graph word `w`: the comparison's bit, widened, read as a signed integer. -/
def oh (k : Fin 64) (w : BitVec 32) : EReal :=
  (((BitVec.setWidth 32 (IntOp.cmpi .eq (BitVec.ofNat 32 k.val) w)).toInt : ℝ) : EReal)

/-- The one-hot row times a 64-row table, at column `c`. -/
def ohSum (T : FVec Ideal (Sh2 64 64) .f32) (w : BitVec 32) (c : Fin 64) : EReal :=
  ∑ k : Fin 64, oh k w * T (ix2 k c)

/-- Conditioning and clipping, the tables read through the one-hot product (kernel) or at a row `g` (reference). -/
def actOH (Gam Bet : FVec Ideal (Sh2 64 64) .f32) (w : BitVec 32) (xn : Fin 64 → EReal) (c : Fin 64) : EReal :=
  max (ohSum Gam w c * xn c + ohSum Bet w c) zero
def actAt (Gam Bet : FVec Ideal (Sh2 64 64) .f32) (g : Fin 64) (xn : Fin 64 → EReal) (c : Fin 64) : EReal :=
  max (Gam (ix2 g c) * xn c + Bet (ix2 g c)) zero

/-- The second linear map: y[o] = Σ_c z[c]·Wl[c,o] + bl[o]. -/
def lin (LwT : FVec Ideal (Sh2 64 128) .f32) (lb : FVec Ideal (Sh1 128) .f32) (z : Fin 64 → EReal) (o : Fin 128) : EReal :=
  (∑ c : Fin 64, z c * LwT (ix2 c o)) + lb (ix1 o)

/-- A block of `n` nodes the kernel's way: the graph word of row `r` is `n2g[r,0]`. -/
def nodeOH {n : Nat} (nf : FVec Ideal (Sh2 n 256) .f32) (n2g : IVec (Sh2 n 1) 32) (Gam Bet : FVec Ideal (Sh2 64 64) .f32)
    (FwT : FVec Ideal (Sh2 256 64) .f32) (fb : FVec Ideal (Sh1 64) .f32) (LwT : FVec Ideal (Sh2 64 128) .f32)
    (lb : FVec Ideal (Sh1 128) .f32) : FVec Ideal (Sh2 n 128) .f32 :=
  fun j => lin LwT lb (actOH Gam Bet (n2g (ix2 (j 0) 0)) (xnK (hid nf FwT fb (j 0)))) (j 1)

/-- The same nodes the reference's way: row `r`'s graph is `g r`. -/
def nodeAt {n : Nat} (nf : FVec Ideal (Sh2 n 256) .f32) (g : Fin n → Fin 64) (Gam Bet : FVec Ideal (Sh2 64 64) .f32)
    (FwT : FVec Ideal (Sh2 256 64) .f32) (fb : FVec Ideal (Sh1 64) .f32) (LwT : FVec Ideal (Sh2 64 128) .f32)
    (lb : FVec Ideal (Sh1 128) .f32) : FVec Ideal (Sh2 n 128) .f32 :=
  fun j => lin LwT lb (actAt Gam Bet (g (j 0)) (xnR (hid nf FwT fb (j 0)))) (j 1)

/-- The edge mean, clipped: max (agg / max (cnt, 1), 0), the count a column. -/
def normRelu {n : Nat} (agg : FVec Ideal (Sh2 n 128) .f32) (cnt : FVec Ideal (Sh2 n 1) .f32) : FVec Ideal (Sh2 n 128) .f32 :=
  fun j => max (Ideal.div (agg j) (max (cnt (ix2 (j 0) 0)) one)) zero

/-- `nodeOH` reads row `j 0` of the features and of the graph words only: two blocks of nodes that agree on a row
    agree on that row's outputs. -/
theorem nodeOH_congr {n n' : Nat} (nf : FVec Ideal (Sh2 n 256) .f32) (nf' : FVec Ideal (Sh2 n' 256) .f32)
    (n2g : IVec (Sh2 n 1) 32) (n2g' : IVec (Sh2 n' 1) 32) (Gam Bet : FVec Ideal (Sh2 64 64) .f32)
    (FwT : FVec Ideal (Sh2 256 64) .f32) (fb : FVec Ideal (Sh1 64) .f32) (LwT : FVec Ideal (Sh2 64 128) .f32)
    (lb : FVec Ideal (Sh1 128) .f32) (j : (Sh2 n 128).Idx) (j' : (Sh2 n' 128).Idx)
    (hnf : ∀ k : Fin 256, nf (ix2 (j 0) k) = nf' (ix2 (j' 0) k)) (hg : n2g (ix2 (j 0) 0) = n2g' (ix2 (j' 0) 0))
    (ho : (j 1 : Fin 128) = (j' 1 : Fin 128)) :
    nodeOH nf n2g Gam Bet FwT fb LwT lb j = nodeOH nf' n2g' Gam Bet FwT fb LwT lb j' := by
  have hh : hid nf FwT fb (j 0) = hid nf' FwT fb (j' 0) := by
    funext c; unfold hid; simp only [hnf]
  unfold nodeOH
  rw [hh, hg, ho]

end Cert.Spec

end
-- ==== Proof.Tail.lean ====
/-
  The edge aggregation both programs apply to the node outputs `X`: the rows of `X` at the edges' sources are gathered
  and summed into the edges' destinations; the count is the same sum of ones.  Both programs spell it with the same
  host operations, so it is carried here as ONE function of `X` and the edge list and never opened.
-/
import proofs.«431239_j68453188763818_2_alg».proof.Proof.Gen.ReferenceIdeal.Read
import proofs.«431239_j68453188763818_2_alg».proof.Proof.Spec

set_option maxRecDepth 16384

noncomputable section

open Idealize.ShloMosaic Idealize.ShloMosaic.TcCoe Idealize.SL.Sem Idealize.ShloMosaic.ValueIdx

namespace Cert.Tail

open Cert.ReferenceIdeal Cert.ReferenceIdeal.Read

/-- The edge sum: `X`'s rows at the sources, scatter-added at the destinations into zeros. -/
def aggOf (X : FVec Ideal S100000x128 .f32) (E : IVec S2x1600000 32) : FVec Ideal S100000x128 .f32 :=
  Host.scatterAdd (F := Ideal) scatter_S100000x128_S1600000x1_S1600000x128_1_0_0_1 (val_main_v77 (F := Ideal)) (val_main_v78 (F := Ideal) E)
    (Host.gather gather_S100000x128_S1600000x1_S1600000x128_1_0_n_n_0_1_1128 X (val_main_v75 (F := Ideal) E))

/-- The edge count per destination. -/
def cntOf (E : IVec S2x1600000 32) : FVec Ideal S100000 .f32 :=
  val_main_v83 (F := Ideal) E

/-- The reference's edge sum is `aggOf` of its node outputs. -/
theorem v79_eq (x0 : (⟨S100000x256, .f32⟩ : BufTy).Contents (Elt Ideal)) (x1 : (⟨S64x512, .f32⟩ : BufTy).Contents (Elt Ideal)) (x2 : (⟨S128x512, .f32⟩ : BufTy).Contents (Elt Ideal)) (x3 x4 : (⟨S128, .f32⟩ : BufTy).Contents (Elt Ideal)) (x5 : (⟨S64x256, .f32⟩ : BufTy).Contents (Elt Ideal)) (x6 : (⟨S64, .f32⟩ : BufTy).Contents (Elt Ideal)) (x7 : (⟨S128x64, .f32⟩ : BufTy).Contents (Elt Ideal)) (x8 x9 : (⟨S128, .f32⟩ : BufTy).Contents (Elt Ideal)) (x10 : (⟨S2x1600000, .i32⟩ : BufTy).Contents (Elt Ideal)) (x11 : (⟨S100000, .i32⟩ : BufTy).Contents (Elt Ideal)) :
    val_main_v79 (F := Ideal) x0 x1 x2 x3 x4 x5 x6 x7 x8 x9 x10 x11 = aggOf (val_main_v65 (F := Ideal) x0 x1 x2 x3 x4 x5 x6 x7 x8 x9 x11) x10 := rfl

end Cert.Tail

end
-- ==== Proof.SpecLaws.lean ====
/-
  The two laws that join the kernel's row function to the reference's.
-/
import proofs.«431239_j68453188763818_2_alg».proof.Proof.Spec

set_option maxRecDepth 16384

noncomputable section

open Idealize.ShloMosaic Idealize.ShloMosaic.TcCoe Idealize.SL.Sem Idealize.ShloMosaic.ValueIdx

namespace Cert.Spec

/-- The literal 64. -/
theorem c64_eq : c64 = ((64 : ℝ) : EReal) := by
  simp [c64, Ideal.ofBits, Ideal.ieee, -EReal.coe_mul]; norm_num

/-- The epsilon is a positive extended real. -/
theorem eps_pos : (0 : EReal) < eps := by
  simp [eps, Ideal.ofBits, Ideal.ieee, -EReal.coe_mul]

/-- A square is nonnegative on the extended reals, the infinities included. -/
theorem mul_self_nonneg' (x : EReal) : 0 ≤ x * x := by
  induction x using EReal.rec with
  | bot => simp
  | coe r => rw [← EReal.coe_mul]; exact EReal.coe_nonneg.2 (mul_self_nonneg r)
  | top => simp

/-- The variance is nonnegative: a sum of squares times the positive real 1/64. -/
theorem var_nonneg (h : Fin 64 → EReal) : 0 ≤ var h := by
  unfold var
  rw [c64_eq, Ideal.div_coe (by norm_num)]
  apply EReal.mul_nonneg
  · exact Finset.sum_nonneg (fun c _ => mul_self_nonneg' _)
  · exact EReal.coe_nonneg.2 (by norm_num)

/-- Off the nonpositive extended reals, a product with the reciprocal root is the quotient by the root:
    at ⊤ both sides are a product with 0, at a positive real r both are a product with (√r)⁻¹. -/
theorem mul_rsqrt_eq_div_sqrt (a v : EReal) (hv : 0 < v) : a * Ideal.rsqrt v = Ideal.div a (Ideal.sqrt v) := by
  induction v using EReal.rec with
  | bot => exact absurd hv (by simp)
  | coe r =>
    have hr : 0 < r := EReal.coe_pos.1 hv
    have hs : 0 < Real.sqrt r := Real.sqrt_pos.2 hr
    have hne : ((Real.sqrt r : ℝ) : EReal) ≠ 0 := by exact_mod_cast hs.ne'
    rw [Ideal.rsqrt_coe, Ideal.sqrt_coe, if_neg (not_lt.2 hr.le), if_neg hr.ne', if_neg (not_lt.2 hr.le),
      Ideal.div, if_neg hne, EReal.coe_inv]
  | top =>
    rw [Ideal.rsqrt_top, Ideal.sqrt_top, Ideal.div, if_neg (by simp), EReal.inv_top]

/-- Where the variance-plus-epsilon is positive (it always is: a mean of squares plus a positive literal), a product with the
    reciprocal root is the quotient by the root, on every extended real. -/
theorem xnK_eq_xnR (h : Fin 64 → EReal) : xnK h = xnR h := by
  funext c
  unfold xnK xnR
  exact mul_rsqrt_eq_div_sqrt _ _ (Right.add_pos_of_nonneg_of_pos (var_nonneg h) eps_pos)

/-- The one-hot entry at an in-range graph word: 1 on the diagonal, 0 off it (two naturals below 64 have equal
    32-bit words only when equal). -/
theorem oh_ofNat (k g : Fin 64) : oh k (BitVec.ofNat 32 g.val) = if k = g then 1 else 0 := by
  unfold oh IntOp.cmpi
  by_cases hkg : k = g
  · subst hkg; simp
  · have hne : (BitVec.ofNat 32 k.val == BitVec.ofNat 32 g.val) = false := by
      rw [beq_eq_false_iff_ne]
      intro he
      apply hkg
      have := congrArg BitVec.toNat he
      simp only [BitVec.toNat_ofNat] at this
      have hk := k.isLt
      have hg := g.isLt
      rw [Nat.mod_eq_of_lt (by omega), Nat.mod_eq_of_lt (by omega)] at this
      exact Fin.ext this
    simp [hne, hkg]

/-- A one-hot row picks its row of the table: every product with a zero vanishes on the extended reals. -/
theorem ohSum_eq (T : FVec Ideal (Sh2 64 64) .f32) (g : Fin 64) (c : Fin 64) : ohSum T (BitVec.ofNat 32 g.val) c = T (ix2 g c) := by
  unfold ohSum
  rw [Finset.sum_eq_single g]
  · rw [oh_ofNat, if_pos rfl, one_mul]
  · intro k _ hk
    rw [oh_ofNat, if_neg hk, zero_mul]
  · intro hg; exact absurd (Finset.mem_univ g) hg

/-- Conditioning through the one-hot product at an in-range word is conditioning at the row. -/
theorem actOH_eq_actAt (Gam Bet : FVec Ideal (Sh2 64 64) .f32) (g : Fin 64) (xn : Fin 64 → EReal) :
    actOH Gam Bet (BitVec.ofNat 32 g.val) xn = actAt Gam Bet g xn := by
  funext c
  unfold actOH actAt
  rw [ohSum_eq, ohSum_eq]

/-- So a block of nodes the kernel's way is the block the reference's way, when every graph word is in range. -/
theorem nodeOH_eq_nodeAt {n : Nat} (nf : FVec Ideal (Sh2 n 256) .f32) (n2g : IVec (Sh2 n 1) 32) (g : Fin n → Fin 64)
    (hg : ∀ r : Fin n, n2g (ix2 r 0) = BitVec.ofNat 32 (g r).val) (Gam Bet : FVec Ideal (Sh2 64 64) .f32)
    (FwT : FVec Ideal (Sh2 256 64) .f32) (fb : FVec Ideal (Sh1 64) .f32) (LwT : FVec Ideal (Sh2 64 128) .f32)
    (lb : FVec Ideal (Sh1 128) .f32) :
    nodeOH nf n2g Gam Bet FwT fb LwT lb = nodeAt nf g Gam Bet FwT fb LwT lb := by
  funext j
  unfold nodeOH nodeAt
  rw [hg (j 0), xnK_eq_xnR, actOH_eq_actAt]

end Cert.Spec

end
-- ==== Proof.Region1.lean ====
/-
  The second kernel: each block of 2000 nodes is the edge mean, clipped, of the same rows of its two operands; the 50 blocks tile the array.
-/
import proofs.«431239_j68453188763818_2_alg».proof.Proof.Gen.KernelIdeal.Frame
import proofs.«431239_j68453188763818_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

open Idealize.ShloMosaic.Pipeline (Dat)
open Cert.KernelIdeal Cert.KernelIdeal.Gen

namespace Cert.KernelIdeal.Region1

variable (V : (c : Dev nD) → (b : Ref sig .tc) → Buf (Elt Ideal) ((c : Thread nD τ).loc b))

/-- The offset of an access that starts at the block's origin. -/
theorem hz : (![0, 0] : Fin 2 → Nat) = fun _ => 0 := funext fun a => by fin_cases a <;> rfl

/-- The body's payload at row p, column q: the edge sum divided by the count of row p clipped below at 1 (the count
    column spread over the 128 columns), the quotient clipped below at 0. -/
theorem pay_apply (x1 : Vec Ideal S2000x1 .f32) (x0 : Vec Ideal S2000x128 .f32) (p : Fin 2000) (q : Fin 128) :
    k1_pay1 (F := Ideal) x1 x0 (ix2 p q)
      = max (Ideal.div (x0 (ix2 p q)) (max (x1 (ix2 p 0)) Cert.Spec.one)) Cert.Spec.zero := by
  unfold k1_pay1
  simp only [shapeCast_self]
  rw [maximumf_apply, divf_apply, broadcast_apply]
  rw [broadcastTo_apply _ _ (ix2 p q) (ix2 p 0) (fun a => by
    match a with
    | ⟨0, _⟩ => rfl
    | ⟨1, _⟩ => rfl)]
  rw [maximumf_apply, broadcast_apply]
  rfl

/-- The same at any index of the block, the row read off the index. -/
theorem pay_apply' (x1 : Vec Ideal S2000x1 .f32) (x0 : Vec Ideal S2000x128 .f32) (j : S2000x128.Idx) :
    k1_pay1 (F := Ideal) x1 x0 j
      = max (Ideal.div (x0 j) (max (x1 (ix2 (j 0) 0)) Cert.Spec.one)) Cert.Spec.zero := by
  obtain ⟨p, q, rfl⟩ : ∃ (p : Fin 2000) (q : Fin 128), j = ix2 p q := ⟨j 0, j 1, eq_ix2 j⟩
  exact pay_apply x1 x0 p q

/-- The printed index maps over the grid: at point t every window's block index is (t, 0), so the block starts at
    row 2000 t, column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The two operand arrays as the region finds them, at their literal types: the edge sums and the count column. -/
abbrev aggArr (c : Dev nD) : FVec Ideal (Cert.Spec.Sh2 100000 128) .f32 := V c main_v38
abbrev cntArr (c : Dev nD) : FVec Ideal (Cert.Spec.Sh2 100000 1) .f32 := V c main_v43

/-- What point t writes back is block t of the clipped edge mean of the two operand arrays: the payload at an index of
    the block reads each operand's block at the same row, and block t of each operand is rows 2000 t … 2000 t + 1999
    of its array, as block t of the output is. -/
theorem flushed_eq (c : Dev nD) (t : Fin cfg1.N) :
    (dat1 (F := Ideal) V c).flushed 2 t = ((cfg1.win 2).blk t).view.read (Elt Ideal) (Cert.Spec.normRelu (n := 100000) (V c main_v38) (V c main_v43)) := by
  show (cfg1.win 2).cut (grid1.coords t) ((dat1 V c).after 2 t) = _
  rw [after1_2]
  unfold out1_2
  rw [View.canon_unit_zero hz]
  simp only [View.ld_unit_zero (S := S2000x1) hz, View.ld_unit_zero (S := S2000x128) hz]
  obtain ⟨e0, e1, e2, e3, e4, e5⟩ := idx_facts t
  funext j
  show k1_pay1 (iblk1 V c 1 t) (iblk1 V c 0 t) ((win1 2).xinj (grid1.coords t) j)
    = Cert.Spec.normRelu (n := 100000) (aggArr V c) (cntArr V c) (((cfg1.win 2).blk t).view.emb j)
  rw [pay_apply']
  -- the edge sums' block at (p, q) is the array at (2000 t + p, q), the output block's own array index
  have h0 : iblk1 V c 0 t ((win1 2).xinj (grid1.coords t) j) = aggArr V c (((cfg1.win 2).blk t).view.emb j) := by
    show aggArr V c (((cfg1.win 0).blk t).view.emb ((win1 2).xinj (grid1.coords t) j)) = _
    refine congrArg (aggArr V c) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  -- the count column's block at (p, 0) is the column at (2000 t + p, 0), the same row
  have h1 : iblk1 V c 1 t (ix2 ((win1 2).xinj (grid1.coords t) j 0) 0) = cntArr V c (ix2 ((((cfg1.win 2).blk t).view.emb j) 0) 0) := by
    show cntArr V c (((cfg1.win 1).blk t).view.emb (ix2 ((win1 2).xinj (grid1.coords t) j 0) 0)) = _
    refine congrArg (cntArr V c) (funext fun a => Fin.ext ?_)
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 1 + 1 * 0 = 0; omega
  rw [h0, h1]
  rfl

/-- An index of the output array lies in the block of point t iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v44).slice (win1_2.rect t)).set ↔ _
  rw [View.set_slice_whole, Rect.mem_set_unit]
  exact Iff.rfl

/-- Row r of the output array lies in the block of point r / 2000, which is written back: the 50 blocks tile the array. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The second region's output array after its 50 points, from the arrays it finds. -/
theorem region1_arr (c : Dev nD) :
    (dat1 (F := Ideal) V c).arrAt 2 cfg1.N = Cert.Spec.normRelu (n := 100000) (V c main_v38) (V c main_v43) :=
  (dat1 (F := Ideal) V c).arrAt_eq_of_cover 2 _ (fun t _ => flushed_eq V c t) cover

end Cert.KernelIdeal.Region1

end
-- ==== Proof.Region0Pay.lean ====
/-
  The first kernel's body on one block of 2000 nodes, read index by index.
-/
import proofs.«431239_j68453188763818_2_alg».proof.Proof.Gen.KernelIdeal.Frame
import proofs.«431239_j68453188763818_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

open Idealize.ShloMosaic.Pipeline (Dat)
open Cert.KernelIdeal Cert.KernelIdeal.Gen

namespace Cert.KernelIdeal.Region0Pay

/-- A product of an [M,K] by a [K,N] matrix with one contracted axis, accumulated into the zero splat, read at
    (p, c): the sum over the K coordinates of the contracted axis. The four coordinate facts say which operand
    index the dimension numbers name. -/
theorem mm_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal (⟨2, ![M, K]⟩ : Shape) φ₁) (B : FVec Ideal (⟨2, ![K, N]⟩ : Shape) φ₂)
    (p : Fin M) (c : Fin N) :
    FloatOps.matmul D prec A B (constant (F := Ideal) (⟨2, ![M, N]⟩ : Shape) .f32 0x00000000#32) (ix2 p c)
      = ∑ k : Fin K, A (ix2 p k) * B (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

/-- The first product, features by the first weight matrix. -/
theorem mm1_apply {φ₁ φ₂ : FTy} (prec : Option ContractPrecision) (A : FVec Ideal S2000x256 φ₁) (B : FVec Ideal S256x64 φ₂)
    (p : Fin 2000) (c : Fin 64) :
    matmul dot_S2000x256_S256x64_S2000x64_1_0_0_1_n_n prec A B (constant (F := Ideal) S2000x64 .f32 0x00000000#32) (ix2 p c)
      = ∑ k : Fin 256, A (ix2 p k) * B (ix2 k c) :=
  mm_zero_apply dot_S2000x256_S256x64_S2000x64_1_0_0_1_n_n rfl rfl
    (fun i q => by
      unfold DotDims.lhsIdx
      rw [dif_neg (show ¬(0 : Fin S2000x256.rank) ∈ dot_S2000x256_S256x64_S2000x64_1_0_0_1_n_n.lhsBatch by decide),
        dif_pos (show (0 : Fin S2000x256.rank) ∈ dot_S2000x256_S256x64_S2000x64_1_0_0_1_n_n.lhsNonContracting by decide)]
      rfl)
    (fun i q => dot_S2000x256_S256x64_S2000x64_1_0_0_1_n_n.lhsIdx_val_of_single rfl i q)
    (fun i q => dot_S2000x256_S256x64_S2000x64_1_0_0_1_n_n.rhsIdx_val_of_single rfl i q)
    (fun i q => by
      unfold DotDims.rhsIdx
      rw [dif_neg (show ¬(1 : Fin S256x64.rank) ∈ dot_S2000x256_S256x64_S2000x64_1_0_0_1_n_n.rhsBatch by decide),
        dif_pos (show (1 : Fin S256x64.rank) ∈ dot_S2000x256_S256x64_S2000x64_1_0_0_1_n_n.rhsNonContracting by decide)]
      rfl)
    prec A B p c

/-- The one-hot products, a [2000,64] block by a [64,64] table. -/
theorem mm2_apply {φ₁ φ₂ : FTy} (prec : Option ContractPrecision) (A : FVec Ideal S2000x64 φ₁) (B : FVec Ideal S64x64 φ₂)
    (p : Fin 2000) (c : Fin 64) :
    matmul dot_S2000x64_S64x64_S2000x64_1_0_0_1_n_n prec A B (constant (F := Ideal) S2000x64 .f32 0x00000000#32) (ix2 p c)
      = ∑ k : Fin 64, A (ix2 p k) * B (ix2 k c) :=
  mm_zero_apply dot_S2000x64_S64x64_S2000x64_1_0_0_1_n_n rfl rfl
    (fun i q => by
      unfold DotDims.lhsIdx
      rw [dif_neg (show ¬(0 : Fin S2000x64.rank) ∈ dot_S2000x64_S64x64_S2000x64_1_0_0_1_n_n.lhsBatch by decide),
        dif_pos (show (0 : Fin S2000x64.rank) ∈ dot_S2000x64_S64x64_S2000x64_1_0_0_1_n_n.lhsNonContracting by decide)]
      rfl)
    (fun i q => dot_S2000x64_S64x64_S2000x64_1_0_0_1_n_n.lhsIdx_val_of_single rfl i q)
    (fun i q => dot_S2000x64_S64x64_S2000x64_1_0_0_1_n_n.rhsIdx_val_of_single rfl i q)
    (fun i q => by
      unfold DotDims.rhsIdx
      rw [dif_neg (show ¬(1 : Fin S64x64.rank) ∈ dot_S2000x64_S64x64_S2000x64_1_0_0_1_n_n.rhsBatch by decide),
        dif_pos (show (1 : Fin S64x64.rank) ∈ dot_S2000x64_S64x64_S2000x64_1_0_0_1_n_n.rhsNonContracting by decide)]
      rfl)
    prec A B p c

/-- The last product, the activations by the second weight matrix. -/
theorem mm3_apply {φ₁ φ₂ : FTy} (prec : Option ContractPrecision) (A : FVec Ideal S2000x64 φ₁) (B : FVec Ideal S64x128 φ₂)
    (p : Fin 2000) (o : Fin 128) :
    matmul dot_S2000x64_S64x128_S2000x128_1_0_0_1_n_n prec A B (constant (F := Ideal) S2000x128 .f32 0x00000000#32) (ix2 p o)
      = ∑ k : Fin 64, A (ix2 p k) * B (ix2 k o) :=
  mm_zero_apply dot_S2000x64_S64x128_S2000x128_1_0_0_1_n_n rfl rfl
    (fun i q => by
      unfold DotDims.lhsIdx
      rw [dif_neg (show ¬(0 : Fin S2000x64.rank) ∈ dot_S2000x64_S64x128_S2000x128_1_0_0_1_n_n.lhsBatch by decide),
        dif_pos (show (0 : Fin S2000x64.rank) ∈ dot_S2000x64_S64x128_S2000x128_1_0_0_1_n_n.lhsNonContracting by decide)]
      rfl)
    (fun i q => dot_S2000x64_S64x128_S2000x128_1_0_0_1_n_n.lhsIdx_val_of_single rfl i q)
    (fun i q => dot_S2000x64_S64x128_S2000x128_1_0_0_1_n_n.rhsIdx_val_of_single rfl i q)
    (fun i q => by
      unfold DotDims.rhsIdx
      rw [dif_neg (show ¬(1 : Fin S64x128.rank) ∈ dot_S2000x64_S64x128_S2000x128_1_0_0_1_n_n.rhsBatch by decide),
        dif_pos (show (1 : Fin S64x128.rank) ∈ dot_S2000x64_S64x128_S2000x128_1_0_0_1_n_n.rhsNonContracting by decide)]
      rfl)
    prec A B p o

/-- A column [2000,1] broadcast along the 64 hidden units reads its row's one entry. -/
theorem colb_apply {α : Type} (w : S2000x1.Idx → α) (p : Fin 2000) (c : Fin 64) :
    broadcastTo S2000x64 w broadcasts_S2000x1_S2000x64 (ix2 p c) = w (ix2 p (0 : Fin 1)) := by
  refine broadcastTo_apply w broadcasts_S2000x1_S2000x64 (ix2 p c) (ix2 p (0 : Fin 1)) fun ax => ?_
  match ax with
  | ⟨0, _⟩ =>
    show p.val = if (2000 : Nat) = 1 then 0 else p.val
    rw [if_neg (by decide)]
  | ⟨1, _⟩ => rfl

/-- A vector [2000] cast to a column [2000,1] reads its row's entry. -/
theorem colcast_apply {α : Type} (x : S2000.Idx → α) (p : Fin 2000) (u : Fin 1) :
    shapeCast S2000x1 x shapeCasts_S2000_S2000x1 (ix2 p u) = x (ix1 p) :=
  shapeCast_apply x shapeCasts_S2000_S2000x1 _ _ (by
    have hu : u.val = 0 := by omega
    rw [Shape.rowMajor_val_two, Shape.rowMajor_val_one]
    show p.val = p.val * 1 + u.val
    rw [hu, Nat.mul_one, Nat.add_zero])

/-- The sum over the hidden units of a [2000,64] block, at row p. -/
theorem rowsum_apply (v : FVec Ideal S2000x64 .f32) (p : Fin 2000) :
    multiReduction (F := Ideal) .add [1] S2000 v 0x00000000#32 reduces_S2000x64_S2000 (.inl rfl) rfl (ix1 p)
      = ∑ c : Fin 64, v (ix2 p c) := by
  refine (Ideal.multiReduction_add_single v 0x00000000#32 reduces_S2000x64_S2000 (.inl rfl) rfl (ix1 p)).trans ?_
  refine Finset.sum_congr rfl fun c _ => congrArg v ?_
  funext a
  match a with
  | ⟨0, _⟩ => rfl
  | ⟨1, _⟩ => rfl

/-- The one-hot row of a node's graph word, entry k. -/
theorem pay3_apply (x1 : Vec Ideal S2000x1 .i32) (p : Fin 2000) (k : Fin 64) :
    k0_pay3 (F := Ideal) x1 (ix2 p k) = Cert.Spec.oh k (x1 (ix2 p (0 : Fin 1))) := by
  unfold k0_pay3 Cert.Spec.oh
  simp only [sitofp_apply, extui_apply, shapeCast_self]
  have hc : ∀ (a b : IVec S2000x64 32) (i : S2000x64.Idx), cmpi .eq a b i = IntOp.cmpi .eq (a i) (b i) := fun _ _ _ => rfl
  rw [hc, iota_single_apply, colb_apply]
  rfl

/-- The one-hot row times a table, column c. -/
theorem pay4_apply (x1 : Vec Ideal S2000x1 .i32) (T : Vec Ideal S64x64 .f32) (p : Fin 2000) (c : Fin 64) :
    k0_pay4 (F := Ideal) x1 T (ix2 p c) = Cert.Spec.ohSum T (x1 (ix2 p (0 : Fin 1))) c := by
  unfold k0_pay4 Cert.Spec.ohSum
  simp only [shapeCast_self]
  rw [mm2_apply]
  simp only [pay3_apply]

/-- The second table passes through unchanged. -/
theorem pay5_eq (T : Vec Ideal S64x64 .f32) : k0_pay5 (F := Ideal) T = T := by
  unfold k0_pay5
  simp only [shapeCast_self]

/-- The first linear map on a block: the product plus the bias row broadcast over the nodes. -/
def hidBlk (x0 : Vec Ideal S2000x256 .f32) (x4 : Vec Ideal S256x64 .f32) (x5 : Vec Ideal S64 .f32) : FVec Ideal S2000x64 .f32 :=
  addf (matmul dot_S2000x256_S256x64_S2000x64_1_0_0_1_n_n none (truncf .bf16 x0 bitsLt_bf16_f32)
      (truncf .bf16 (shapeCast S256x64 x4 shapeCasts_S256x64_S256x64) bitsLt_bf16_f32) (constant S2000x64 .f32 0x00000000#32))
    (broadcastTo S2000x64 (shapeCast S1x64 x5 shapeCasts_S64_S1x64) broadcasts_S1x64_S2000x64)

/-- The row sums of a block divided by the literal 64, as a column. -/
def meanCol (v : FVec Ideal S2000x64 .f32) : FVec Ideal S2000x1 .f32 :=
  divf (shapeCast S2000x1 (multiReduction .add [1] S2000 v 0x00000000#32 reduces_S2000x64_S2000 (.inl rfl) rfl) shapeCasts_S2000_S2000x1)
    (broadcast S2000x1 (Scalar.ofBits .f32 0x42800000#32))

/-- A block with its row means taken off. -/
def cenBlk (v : FVec Ideal S2000x64 .f32) : FVec Ideal S2000x64 .f32 :=
  subf v (broadcastTo S2000x64 (meanCol v) broadcasts_S2000x1_S2000x64)

/-- The layer normalisation of a block, scaled by the reciprocal root. -/
def normBlk (v : FVec Ideal S2000x64 .f32) : FVec Ideal S2000x64 .f32 :=
  mulf (cenBlk v) (broadcastTo S2000x64
    (rsqrt (addf (meanCol (mulf (cenBlk v) (cenBlk v))) (broadcast S2000x1 (Scalar.ofBits .f32 0x3727C5AC#32))))
    broadcasts_S2000x1_S2000x64)

/-- The second payload is the normalisation of the first linear map. -/
theorem pay2_eq (x0 : Vec Ideal S2000x256 .f32) (x4 : Vec Ideal S256x64 .f32) (x5 : Vec Ideal S64 .f32) :
    k0_pay2 (F := Ideal) x0 x4 x5 = normBlk (hidBlk x0 x4 x5) := rfl

/-- The first linear map at (p, c). -/
theorem hidBlk_apply (x0 : Vec Ideal S2000x256 .f32) (x4 : Vec Ideal S256x64 .f32) (x5 : Vec Ideal S64 .f32) (p : Fin 2000) (c : Fin 64) :
    hidBlk x0 x4 x5 (ix2 p c) = Cert.Spec.hid x0 x4 x5 p c := by
  unfold hidBlk Cert.Spec.hid
  rw [addf_apply, mm1_apply, broadcastTo_1b_ab_apply, shapeCast_a_1a_apply]
  simp only [truncf_apply, shapeCast_self]

/-- The mean column at row p. -/
theorem meanCol_apply (v : FVec Ideal S2000x64 .f32) (p : Fin 2000) (u : Fin 1) :
    meanCol v (ix2 p u) = Ideal.div (∑ c : Fin 64, v (ix2 p c)) Cert.Spec.c64 := by
  unfold meanCol
  rw [divf_apply, colcast_apply, rowsum_apply]
  rfl

/-- The centred block at (p, c). -/
theorem cenBlk_apply (v : FVec Ideal S2000x64 .f32) (p : Fin 2000) (c : Fin 64) :
    cenBlk v (ix2 p c) = v (ix2 p c) - Cert.Spec.mean (fun c' => v (ix2 p c')) := by
  unfold cenBlk Cert.Spec.mean
  rw [subf_apply, colb_apply, meanCol_apply]

/-- The normalised block at (p, c). -/
theorem normBlk_apply (v : FVec Ideal S2000x64 .f32) (p : Fin 2000) (c : Fin 64) :
    normBlk v (ix2 p c) = Cert.Spec.xnK (fun c' => v (ix2 p c')) c := by
  unfold normBlk Cert.Spec.xnK Cert.Spec.var
  rw [mulf_apply, colb_apply, cenBlk_apply]
  show _ * Ideal.rsqrt (meanCol (mulf (cenBlk v) (cenBlk v)) (ix2 p 0) + Cert.Spec.eps) = _
  rw [meanCol_apply]
  simp only [mulf_apply, cenBlk_apply]

/-- The second payload at (p, c): the kernel's normalised hidden row. -/
theorem pay2_apply (x0 : Vec Ideal S2000x256 .f32) (x4 : Vec Ideal S256x64 .f32) (x5 : Vec Ideal S64 .f32) (p : Fin 2000) (c : Fin 64) :
    k0_pay2 (F := Ideal) x0 x4 x5 (ix2 p c) = Cert.Spec.xnK (Cert.Spec.hid x0 x4 x5 p) c := by
  rw [pay2_eq, normBlk_apply]
  congr 1
  funext c'
  exact hidBlk_apply x0 x4 x5 p c'

/-- The conditioning and the clip below at zero, on a block: gamma's product times the normalised block, plus the
    one-hot block times beta's table. -/
def actBlk (v27 v34 v37 : FVec Ideal S2000x64 .f32) (v39 : FVec Ideal S64x64 .f32) : FVec Ideal S2000x64 .f32 :=
  maximumf (addf (mulf v37 v27)
      (matmul dot_S2000x64_S64x64_S2000x64_1_0_0_1_n_n (some .fp32) v34 v39 (constant S2000x64 .f32 0x00000000#32)))
    (broadcast S2000x64 (Scalar.ofBits .f32 0x00000000#32))

/-- The first payload is the second linear map of the conditioned block. -/
theorem pay1_eq (v27 v34 v37 : FVec Ideal S2000x64 .f32) (v39 : FVec Ideal S64x64 .f32) (v46 : Vec Ideal S64x128 .f32)
    (v50 : Vec Ideal S128 .f32) :
    k0_pay1 (F := Ideal) v27 v34 v37 v39 (constant S2000x64 .f32 0x00000000#32) v46 v50
      = addf (matmul dot_S2000x64_S64x128_S2000x128_1_0_0_1_n_n none (truncf .bf16 (actBlk v27 v34 v37 v39) bitsLt_bf16_f32)
            (truncf .bf16 (shapeCast S64x128 v46 shapeCasts_S64x128_S64x128) bitsLt_bf16_f32) (constant S2000x128 .f32 0x00000000#32))
          (broadcastTo S2000x128 (shapeCast S1x128 v50 shapeCasts_S128_S1x128) broadcasts_S1x128_S2000x128) := rfl

/-- The conditioned block at (p, c). -/
theorem actBlk_apply (v27 v34 v37 : FVec Ideal S2000x64 .f32) (v39 : FVec Ideal S64x64 .f32) (p : Fin 2000) (c : Fin 64) :
    actBlk v27 v34 v37 v39 (ix2 p c)
      = max (v37 (ix2 p c) * v27 (ix2 p c) + ∑ k : Fin 64, v34 (ix2 p k) * v39 (ix2 k c)) Cert.Spec.zero := by
  unfold actBlk
  rw [maximumf_apply, addf_apply, mulf_apply, mm2_apply]
  rfl

/-- The first payload at (p, o): the second linear map of the conditioned row. -/
theorem pay1_apply (v27 v34 v37 : FVec Ideal S2000x64 .f32) (v39 : FVec Ideal S64x64 .f32) (x6 : Vec Ideal S64x128 .f32)
    (x7 : Vec Ideal S128 .f32) (p : Fin 2000) (o : Fin 128) :
    k0_pay1 (F := Ideal) v27 v34 v37 v39 (constant S2000x64 .f32 0x00000000#32) x6 x7 (ix2 p o)
      = Cert.Spec.lin x6 x7 (fun c => max (v37 (ix2 p c) * v27 (ix2 p c) + ∑ k : Fin 64, v34 (ix2 p k) * v39 (ix2 k c)) Cert.Spec.zero) o := by
  rw [pay1_eq]
  unfold Cert.Spec.lin
  rw [addf_apply, mm3_apply, broadcastTo_1b_ab_apply, shapeCast_a_1a_apply]
  simp only [truncf_apply, shapeCast_self, actBlk_apply]

/-- What the body leaves in the output block is the row function of its loaded blocks. -/
theorem region0_pay (x0 : Vec Ideal S2000x256 .f32) (x1 : Vec Ideal S2000x1 .i32) (x2 x3 : Vec Ideal S64x64 .f32)
    (x4 : Vec Ideal S256x64 .f32) (x5 : Vec Ideal S64 .f32) (x6 : Vec Ideal S64x128 .f32) (x7 : Vec Ideal S128 .f32) :
    out0_8 (F := Ideal) x0 x1 x2 x3 x4 x5 x6 x7 = Cert.Spec.nodeOH (n := 2000) x0 x1 x2 x3 x4 x5 x6 x7 := by
  have hz : (![0, 0] : Fin 2 → Nat) = fun _ => 0 := by funext a; fin_cases a <;> rfl
  have hz1 : (![0] : Fin 1 → Nat) = fun _ => 0 := by funext a; fin_cases a; rfl
  unfold out0_8
  rw [View.canon_unit_zero hz]
  simp only [View.ld_unit_zero (S := S2000x256) hz, View.ld_unit_zero (S := S2000x1) hz, View.ld_unit_zero (S := S64x64) hz,
    View.ld_unit_zero (S := S256x64) hz, View.ld_unit_zero (S := S64x128) hz, View.ld_unit_zero (S := S64) hz1,
    View.ld_unit_zero (S := S128) hz1]
  funext j
  obtain ⟨p, o, rfl⟩ : ∃ (p : Fin 2000) (o : Fin 128), j = ix2 p o := ⟨j 0, j 1, eq_ix2 j⟩
  rw [pay5_eq, pay1_apply]
  unfold Cert.Spec.nodeOH Cert.Spec.actOH
  simp only [pay2_apply, pay3_apply, pay4_apply]
  rfl

end Cert.KernelIdeal.Region0Pay

end
-- ==== Proof.Region0Arr.lean ====
/-
  The first kernel over the grid: block t holds nodes 2000 t … 2000 t + 1999, the tables whole at every point; the 50 blocks tile the array.
-/
import proofs.«431239_j68453188763818_2_alg».proof.Proof.Gen.KernelIdeal.Frame
import proofs.«431239_j68453188763818_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«431239_j68453188763818_2_alg».proof.Proof.Region0Pay
set_option maxRecDepth 16384

noncomputable section

open Idealize.ShloMosaic Idealize.ShloMosaic.TcCoe Idealize.SL.Sem Idealize.ShloMosaic.ValueIdx

open Idealize.ShloMosaic.Pipeline (Dat)
open Cert.KernelIdeal Cert.KernelIdeal.Gen

namespace Cert.KernelIdeal.Region0Arr

variable (V : (c : Dev nD) → (b : Ref sig .tc) → Buf (Elt Ideal) ((c : Thread nD τ).loc b))

/-- The printed index maps, decided over the 50 points: windows 0, 1 and 8 sit at block t on the row axis, the tables at block 0. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! A table's window is one block, the table itself: its block index is 0 on every axis at every point. -/

theorem blk2_eq (c : Dev nD) (t : Fin cfg0.N) : iblk0 V c 2 t = V c main_v14 := by
  obtain ⟨-, -, -, -, e0, e1, -⟩ := idx_facts t
  funext z
  show V c main_v14 (((cfg0.win 2).blk t).view.emb z) = V c main_v14 z
  congr 1
  funext a; apply Fin.ext
  match a with
  | ⟨0, _⟩ => show win0_2.index t (0 : Fin 2) * 64 + 1 * (z 0).val = (z 0).val; omega
  | ⟨1, _⟩ => show win0_2.index t (1 : Fin 2) * 64 + 1 * (z 1).val = (z 1).val; omega

theorem blk3_eq (c : Dev nD) (t : Fin cfg0.N) : iblk0 V c 3 t = V c main_v12 := by
  obtain ⟨-, -, -, -, -, -, e0, e1, -⟩ := idx_facts t
  funext z
  show V c main_v12 (((cfg0.win 3).blk t).view.emb z) = V c main_v12 z
  congr 1
  funext a; apply Fin.ext
  match a with
  | ⟨0, _⟩ => show win0_3.index t (0 : Fin 2) * 64 + 1 * (z 0).val = (z 0).val; omega
  | ⟨1, _⟩ => show win0_3.index t (1 : Fin 2) * 64 + 1 * (z 1).val = (z 1).val; omega

theorem blk4_eq (c : Dev nD) (t : Fin cfg0.N) : iblk0 V c 4 t = V c main_v23 := by
  obtain ⟨-, -, -, -, -, -, -, -, e0, e1, -⟩ := idx_facts t
  funext z
  show V c main_v23 (((cfg0.win 4).blk t).view.emb z) = V c main_v23 z
  congr 1
  funext a; apply Fin.ext
  match a with
  | ⟨0, _⟩ => show win0_4.index t (0 : Fin 2) * 256 + 1 * (z 0).val = (z 0).val; omega
  | ⟨1, _⟩ => show win0_4.index t (1 : Fin 2) * 64 + 1 * (z 1).val = (z 1).val; omega

theorem blk5_eq (c : Dev nD) (t : Fin cfg0.N) : iblk0 V c 5 t = V c main_arg6 := by
  obtain ⟨-, -, -, -, -, -, -, -, -, -, e0, -⟩ := idx_facts t
  funext z
  show V c main_arg6 (((cfg0.win 5).blk t).view.emb z) = V c main_arg6 z
  congr 1
  funext a; apply Fin.ext
  match a with
  | ⟨0, _⟩ => show win0_5.index t (0 : Fin 1) * 64 + 1 * (z 0).val = (z 0).val; omega

theorem blk6_eq (c : Dev nD) (t : Fin cfg0.N) : iblk0 V c 6 t = V c main_v22 := by
  obtain ⟨-, -, -, -, -, -, -, -, -, -, -, e0, e1, -⟩ := idx_facts t
  funext z
  show V c main_v22 (((cfg0.win 6).blk t).view.emb z) = V c main_v22 z
  congr 1
  funext a; apply Fin.ext
  match a with
  | ⟨0, _⟩ => show win0_6.index t (0 : Fin 2) * 64 + 1 * (z 0).val = (z 0).val; omega
  | ⟨1, _⟩ => show win0_6.index t (1 : Fin 2) * 128 + 1 * (z 1).val = (z 1).val; omega

theorem blk7_eq (c : Dev nD) (t : Fin cfg0.N) : iblk0 V c 7 t = V c main_arg9 := by
  obtain ⟨-, -, -, -, -, -, -, -, -, -, -, -, -, e0, -⟩ := idx_facts t
  funext z
  show V c main_arg9 (((cfg0.win 7).blk t).view.emb z) = V c main_arg9 z
  congr 1
  funext a; apply Fin.ext
  match a with
  | ⟨0, _⟩ => show win0_7.index t (0 : Fin 1) * 128 + 1 * (z 0).val = (z 0).val; omega

/-- Row (y 0) of point t's block of the node features is the array's row under the output block's row (y 0):
    both blocks start at row 2000 t, and the feature block spans all 256 columns. -/
theorem row0 (c : Dev nD) (t : Fin cfg0.N) (y : S2000x128.Idx) (k : Fin 256) :
    iblk0 V c 0 t (ix2 (y 0) k) = V c main_arg0 (ix2 ((((cfg0.win 8).blk t).view.emb y) 0) k) := by
  obtain ⟨e0, e1, -, -, -, -, -, -, -, -, -, -, -, -, e8, -⟩ := idx_facts t
  show V c main_arg0 (((cfg0.win 0).blk t).view.emb (ix2 (y 0) k)) = _
  congr 1
  funext a; apply Fin.ext
  match a with
  | ⟨0, _⟩ => show win0_0.index t (0 : Fin 2) * 2000 + 1 * (y 0).val = win0_8.index t (0 : Fin 2) * 2000 + 1 * (y 0).val; omega
  | ⟨1, _⟩ => show win0_0.index t (1 : Fin 2) * 256 + 1 * k.val = k.val; omega

/-- The same for the column of graph words. -/
theorem row1 (c : Dev nD) (t : Fin cfg0.N) (y : S2000x128.Idx) :
    iblk0 V c 1 t (ix2 (y 0) 0) = V c main_v15 (ix2 ((((cfg0.win 8).blk t).view.emb y) 0) 0) := by
  obtain ⟨-, -, e0, e1, -, -, -, -, -, -, -, -, -, -, e8, -⟩ := idx_facts t
  show V c main_v15 (((cfg0.win 1).blk t).view.emb (ix2 (y 0) 0)) = _
  congr 1
  funext a; apply Fin.ext
  match a with
  | ⟨0, _⟩ => show win0_1.index t (0 : Fin 2) * 2000 + 1 * (y 0).val = win0_8.index t (0 : Fin 2) * 2000 + 1 * (y 0).val; omega
  | ⟨1, _⟩ => show win0_1.index t (1 : Fin 2) * 1 + 1 * 0 = 0; omega

/-- The output block spans all 128 columns: the column under (y 1) is (y 1). -/
theorem col8 (t : Fin cfg0.N) (y : S2000x128.Idx) :
    ((((cfg0.win 8).blk t).view.emb y) 1 : Fin 128) = (y 1 : Fin 128) := by
  obtain ⟨-, -, -, -, -, -, -, -, -, -, -, -, -, -, -, e9⟩ := idx_facts t
  apply Fin.ext
  show win0_8.index t (1 : Fin 2) * 128 + 1 * (y 1).val = (y 1).val
  omega

/-- What point t writes back is block t of the row function of the whole arrays. -/
theorem flushed_eq (c : Dev nD) (t : Fin cfg0.N) :
    (dat0 (F := Ideal) V c).flushed 8 t = ((cfg0.win 8).blk t).view.read (Elt Ideal)
      (Cert.Spec.nodeOH (n := 100000) (V c main_arg0) (V c main_v15) (V c main_v14) (V c main_v12) (V c main_v23) (V c main_arg6)
          (V c main_v22) (V c main_arg9)) := by
  show (cfg0.win 8).cut (grid0.coords t) ((dat0 V c).after 8 t) = _
  rw [after0_8, Region0Pay.region0_pay, blk2_eq, blk3_eq, blk4_eq, blk5_eq, blk6_eq, blk7_eq]
  funext y
  exact Cert.Spec.nodeOH_congr (n := 2000) (n' := 100000) (iblk0 V c 0 t) (V c main_arg0) (iblk0 V c 1 t) (V c main_v15)
    (V c main_v14) (V c main_v12) (V c main_v23) (V c main_arg6) (V c main_v22) (V c main_arg9)
    y (((cfg0.win 8).blk t).view.emb y) (row0 V c t y) (row1 V c t y) (col8 t y).symm

/-- An index of the output array is in point t's block iff each coordinate is in the block's range on its axis. -/
theorem mem_blk8 (t : Fin cfg0.N) (i : S100000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v24).slice (win0_8.rect t)).set ↔ _
  rw [View.set_slice_whole, Rect.mem_set_unit]
  exact Iff.rfl

/-- The 50 blocks tile the array: row r lies in the block of point r / 2000. -/
theorem cover8 (i : S100000x128.Idx) :
    ∃ t : Fin cfg0.N, (cfg0.win 8).flush t = true ∧ i ∈ ((cfg0.win 8).blk t).view.set := by
  have hi0 : (i 0).val < 100000 := idx2_lt0 i
  have hi1 : (i 1).val < 128 := (i 1).isLt
  obtain ⟨t, ht⟩ : ∃ t : Fin cfg0.N, t.val = (i 0).val / 2000 := ⟨⟨(i 0).val / 2000, by show _ < 50; omega⟩, rfl⟩
  obtain ⟨-, -, -, -, -, -, -, -, -, -, -, -, -, -, e8, e9⟩ := idx_facts t
  refine ⟨t, flush0_8 t, ?_⟩
  rw [mem_blk8]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- The first region's output array after its 50 points, from the arrays it finds. -/
theorem region0_arr (c : Dev nD) :
    (dat0 (F := Ideal) V c).arrAt 8 cfg0.N
      = Cert.Spec.nodeOH (n := 100000) (V c main_arg0) (V c main_v15) (V c main_v14) (V c main_v12) (V c main_v23) (V c main_arg6)
          (V c main_v22) (V c main_arg9) :=
  (dat0 (F := Ideal) V c).arrAt_eq_of_cover 8 _ (fun t _ => flushed_eq V c t) cover8

end Cert.KernelIdeal.Region0Arr

end
-- ==== Proof.HostRead.lean ====
/-
  The host stretches of the kernel's program, read: the arrays the first region finds (the arguments, the graph words as a
  column, the conditioning tables, the transposed weights) and the arrays the second region finds (the edge sum of the first
  region's output and the edge count as a column), as the same terms the reference computes.
-/
import proofs.«431239_j68453188763818_2_alg».proof.Proof.Gen.KernelIdeal.Frame
import proofs.«431239_j68453188763818_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«431239_j68453188763818_2_alg».proof.Proof.Gen.ReferenceIdeal.Read
import proofs.«431239_j68453188763818_2_alg».proof.Proof.Tail
import Idealize.ShloMosaic.Lib.StableHlo.Run
set_option maxRecDepth 16384

noncomputable section

open Idealize.ShloMosaic Idealize.ShloMosaic.TcCoe Idealize.SL.Sem Idealize.ShloMosaic.ValueIdx

open Idealize.ShloMosaic.Pipeline (Dat)
open Cert.KernelIdeal Cert.KernelIdeal.Gen

namespace Cert.KernelIdeal.HostRead

open Cert.ReferenceIdeal.Read (val_main_v14 val_main_v12 val_main_v15 val_main_v61)

variable (m : (ℓ : Loc nD τ sig) → Buf (Elt Ideal) ℓ) (ρ : Dev nD → PrngReg)

/-! ## A buffer outside a stretch's results keeps its contents -/

/-- Every operation of the stretch writes inside the given list of references. -/
local macro "writes_in" ops:ident : tactic =>
  `(tactic| (simp only [$ops:ident, List.Forall, StableHlo.nullary_writes, StableHlo.unary_writes, StableHlo.binary_writes,
               StableHlo.ternary_writes, StableHlo.quaternary_writes, StableHlo.reshape_writes,
               StableHlo.binaryIndexed_writes, Finset.singleton_subset_iff, List.mem_toFinset, List.map_cons, List.map_nil,
               List.mem_cons, true_or, or_true, and_self]))

theorem W1_keep (c : Dev nD) (r : Ref sig .tc) (hr : r ∉ [main_v0, main_v1, main_v2]) :
    W1 m ρ c (Proc.devRef .tc r) = m ((c : Thread nD τ).loc r) :=
  StableHlo.after_of_writes_sub (W := [main_v0, main_v1, main_v2]) hostOps0 _ (by writes_in hostOps0) hr

theorem W2_keep (c : Dev nD) (r : Ref sig .tc) (hr : r ∉ [main_call0_v0, main_call0_cst, main_call0_v1, main_call0_v2, main_v3]) :
    W2 m ρ c (Proc.devRef .tc r) = W1 m ρ c (Proc.devRef .tc r) :=
  StableHlo.after_of_writes_sub (W := [main_call0_v0, main_call0_cst, main_call0_v1, main_call0_v2, main_v3]) hostOps0_1 _
    (by writes_in hostOps0_1) hr

theorem W3_keep (c : Dev nD) (r : Ref sig .tc)
    (hr : r ∉ [main_v4, main_v5, main_v6, main_v7, main_v8, main_v9, main_v10, main_v11, main_v12, main_cst, main_v13,
      main_v14, main_v15, main_v16, main_v17, main_v18]) :
    W3 m ρ c (Proc.devRef .tc r) = W2 m ρ c (Proc.devRef .tc r) :=
  StableHlo.after_of_writes_sub (W := [main_v4, main_v5, main_v6, main_v7, main_v8, main_v9, main_v10, main_v11, main_v12,
    main_cst, main_v13, main_v14, main_v15, main_v16, main_v17, main_v18]) hostOps0_2 _ (by writes_in hostOps0_2) hr

theorem W4_keep (c : Dev nD) (r : Ref sig .tc) (hr : r ∉ [main_call1_v0, main_call1_cst, main_call1_v1, main_call1_v2, main_v19]) :
    W4 m ρ c (Proc.devRef .tc r) = W3 m ρ c (Proc.devRef .tc r) :=
  StableHlo.after_of_writes_sub (W := [main_call1_v0, main_call1_cst, main_call1_v1, main_call1_v2, main_v19]) hostOps0_3 _
    (by writes_in hostOps0_3) hr

theorem W5_keep (c : Dev nD) (r : Ref sig .tc) (hr : r ∉ [main_v20, main_v21, main_v22, main_v23]) :
    W5 m ρ c (Proc.devRef .tc r) = W4 m ρ c (Proc.devRef .tc r) :=
  StableHlo.after_of_writes_sub (W := [main_v20, main_v21, main_v22, main_v23]) hostOps0_4 _ (by writes_in hostOps0_4) hr

/-! ## The arguments through the stretches -/

theorem W2_arg (c : Dev nD) (r : Ref sig .tc) (h1 : r ∉ [main_v0, main_v1, main_v2])
    (h2 : r ∉ [main_call0_v0, main_call0_cst, main_call0_v1, main_call0_v2, main_v3]) :
    W2 m ρ c (Proc.devRef .tc r) = m ((c : Thread nD τ).loc r) :=
  (W2_keep m ρ c r h2).trans (W1_keep m ρ c r h1)

theorem W3_arg (c : Dev nD) (r : Ref sig .tc) (h1 : r ∉ [main_v0, main_v1, main_v2])
    (h2 : r ∉ [main_call0_v0, main_call0_cst, main_call0_v1, main_call0_v2, main_v3])
    (h3 : r ∉ [main_v4, main_v5, main_v6, main_v7, main_v8, main_v9, main_v10, main_v11, main_v12, main_cst, main_v13,
      main_v14, main_v15, main_v16, main_v17, main_v18]) :
    W3 m ρ c (Proc.devRef .tc r) = m ((c : Thread nD τ).loc r) :=
  (W3_keep m ρ c r h3).trans (W2_arg m ρ c r h1 h2)

theorem W4_arg (c : Dev nD) (r : Ref sig .tc) (h1 : r ∉ [main_v0, main_v1, main_v2])
    (h2 : r ∉ [main_call0_v0, main_call0_cst, main_call0_v1, main_call0_v2, main_v3])
    (h3 : r ∉ [main_v4, main_v5, main_v6, main_v7, main_v8, main_v9, main_v10, main_v11, main_v12, main_cst, main_v13,
      main_v14, main_v15, main_v16, main_v17, main_v18])
    (h4 : r ∉ [main_call1_v0, main_call1_cst, main_call1_v1, main_call1_v2, main_v19]) :
    W4 m ρ c (Proc.devRef .tc r) = m ((c : Thread nD τ).loc r) :=
  (W4_keep m ρ c r h4).trans (W3_arg m ρ c r h1 h2 h3)

theorem W5_arg (c : Dev nD) (r : Ref sig .tc) (h1 : r ∉ [main_v0, main_v1, main_v2])
    (h2 : r ∉ [main_call0_v0, main_call0_cst, main_call0_v1, main_call0_v2, main_v3])
    (h3 : r ∉ [main_v4, main_v5, main_v6, main_v7, main_v8, main_v9, main_v10, main_v11, main_v12, main_cst, main_v13,
      main_v14, main_v15, main_v16, main_v17, main_v18])
    (h4 : r ∉ [main_call1_v0, main_call1_cst, main_call1_v1, main_call1_v2, main_v19])
    (h5 : r ∉ [main_v20, main_v21, main_v22, main_v23]) :
    W5 m ρ c (Proc.devRef .tc r) = m ((c : Thread nD τ).loc r) :=
  (W5_keep m ρ c r h5).trans (W4_arg m ρ c r h1 h2 h3 h4)

theorem V5_arg0 (c : Dev nD) : V5 m ρ c main_arg0 = m ((c : Thread nD τ).loc main_arg0) :=
  W5_arg m ρ c main_arg0 (by decide) (by decide) (by decide) (by decide) (by decide)
theorem V5_arg6 (c : Dev nD) : V5 m ρ c main_arg6 = m ((c : Thread nD τ).loc main_arg6) :=
  W5_arg m ρ c main_arg6 (by decide) (by decide) (by decide) (by decide) (by decide)
theorem V5_arg9 (c : Dev nD) : V5 m ρ c main_arg9 = m ((c : Thread nD τ).loc main_arg9) :=
  W5_arg m ρ c main_arg9 (by decide) (by decide) (by decide) (by decide) (by decide)

/-! ## Each stretch over any entry contents `W`: what it leaves in the buffers read later -/

section Stretches
variable (W : Valuation τ sig (Elt Ideal))

open Cert.ReferenceIdeal.Read in
/-- The first stretch: the first weight scaled by its gain. -/
theorem s0_v2 (a2 : (⟨S128x512, .f32⟩ : BufTy).Contents (Elt Ideal)) (a3 : (⟨S128, .f32⟩ : BufTy).Contents (Elt Ideal))
    (h2 : W (Proc.devRef .tc main_arg2) = a2) (h3 : W (Proc.devRef .tc main_arg3) = a3) :
    StableHlo.after hostOps0 W (Proc.devRef .tc main_v2) = val_main_v2 (F := Ideal) a2 a3 := by
  after_results
  rw [h2, h3]
  rfl

open Cert.ReferenceIdeal.Read in
/-- The second stretch: the first weight's row norms. -/
theorem s1_v3 (a2 : (⟨S128x512, .f32⟩ : BufTy).Contents (Elt Ideal))
    (h2 : W (Proc.devRef .tc main_arg2) = a2) :
    StableHlo.after hostOps0_1 W (Proc.devRef .tc main_v3) = val_main_v3 (F := Ideal) a2 := by
  after_results
  subst h2
  rfl

open Cert.ReferenceIdeal.Read in
/-- The third stretch: the conditioning tables, the graph words as a column, the second weight scaled by its gain. -/
theorem s2_v14 (a1 : (⟨S64x512, .f32⟩ : BufTy).Contents (Elt Ideal)) (a2 : (⟨S128x512, .f32⟩ : BufTy).Contents (Elt Ideal))
    (a3 a4 : (⟨S128, .f32⟩ : BufTy).Contents (Elt Ideal))
    (h1 : W (Proc.devRef .tc main_arg1) = a1) (h4 : W (Proc.devRef .tc main_arg4) = a4)
    (hv2 : W (Proc.devRef .tc main_v2) = val_main_v2 (F := Ideal) a2 a3)
    (hv3 : W (Proc.devRef .tc main_v3) = val_main_v3 (F := Ideal) a2) :
    StableHlo.after hostOps0_2 W (Proc.devRef .tc main_v14) = val_main_v14 (F := Ideal) a1 a2 a3 a4 := by
  after_results
  rw [h1, h4, hv2, hv3]
  rfl

open Cert.ReferenceIdeal.Read in
theorem s2_v12 (a1 : (⟨S64x512, .f32⟩ : BufTy).Contents (Elt Ideal)) (a2 : (⟨S128x512, .f32⟩ : BufTy).Contents (Elt Ideal))
    (a3 a4 : (⟨S128, .f32⟩ : BufTy).Contents (Elt Ideal))
    (h1 : W (Proc.devRef .tc main_arg1) = a1) (h4 : W (Proc.devRef .tc main_arg4) = a4)
    (hv2 : W (Proc.devRef .tc main_v2) = val_main_v2 (F := Ideal) a2 a3)
    (hv3 : W (Proc.devRef .tc main_v3) = val_main_v3 (F := Ideal) a2) :
    StableHlo.after hostOps0_2 W (Proc.devRef .tc main_v12) = val_main_v12 (F := Ideal) a1 a2 a3 a4 := by
  after_results
  rw [h1, h4, hv2, hv3]
  rfl

open Cert.ReferenceIdeal.Read in
theorem s2_v18 (a7 : (⟨S128x64, .f32⟩ : BufTy).Contents (Elt Ideal)) (a8 : (⟨S128, .f32⟩ : BufTy).Contents (Elt Ideal))
    (h7 : W (Proc.devRef .tc main_arg7) = a7) (h8 : W (Proc.devRef .tc main_arg8) = a8) :
    StableHlo.after hostOps0_2 W (Proc.devRef .tc main_v18) = val_main_v57 (F := Ideal) a7 a8 := by
  after_results
  rw [h7, h8]
  rfl

theorem s2_v15 (a11 : IVec S100000 32) (h11 : W (Proc.devRef .tc main_arg11) = a11) (r : Fin 100000) :
    (StableHlo.after hostOps0_2 W (Proc.devRef .tc main_v15) : IVec S100000x1 32) (ix2 r 0) = a11 (ix1 r) := by
  after_results
  rw [h11]
  show shapeCast S100000x1 a11 shapeCasts_S100000_S100000x1 (ix2 r 0) = a11 (ix1 r)
  exact shapeCast_apply a11 shapeCasts_S100000_S100000x1 (ix2 r 0) (ix1 r)
    (by rw [Shape.rowMajor_val_two, Shape.rowMajor_val_one]; show r.val = r.val * 1 + 0; omega)

open Cert.ReferenceIdeal.Read in
/-- The fourth stretch: the second weight's row norms. -/
theorem s3_v19 (a7 : (⟨S128x64, .f32⟩ : BufTy).Contents (Elt Ideal))
    (h7 : W (Proc.devRef .tc main_arg7) = a7) :
    StableHlo.after hostOps0_3 W (Proc.devRef .tc main_v19) = val_main_v58 (F := Ideal) a7 := by
  after_results
  subst h7
  rfl

open Cert.ReferenceIdeal.Read in
/-- The fifth stretch: the second weight divided by its row norms and transposed; the node map's weight transposed. -/
theorem s4_v22 (a7 : (⟨S128x64, .f32⟩ : BufTy).Contents (Elt Ideal)) (a8 : (⟨S128, .f32⟩ : BufTy).Contents (Elt Ideal))
    (hv18 : W (Proc.devRef .tc main_v18) = val_main_v57 (F := Ideal) a7 a8)
    (hv19 : W (Proc.devRef .tc main_v19) = val_main_v58 (F := Ideal) a7) :
    StableHlo.after hostOps0_4 W (Proc.devRef .tc main_v22) = val_main_v61 (F := Ideal) a7 a8 := by
  after_results
  rw [hv18, hv19]
  rfl

open Cert.ReferenceIdeal.Read in
theorem s4_v23 (a5 : (⟨S64x256, .f32⟩ : BufTy).Contents (Elt Ideal))
    (h5 : W (Proc.devRef .tc main_arg5) = a5) :
    StableHlo.after hostOps0_4 W (Proc.devRef .tc main_v23) = val_main_v15 (F := Ideal) a5 := by
  after_results
  rw [h5]
  rfl

end Stretches

/-! ## The stretches composed from the launch -/

theorem W1_v2 (c : Dev nD) :
    W1 m ρ c (Proc.devRef .tc main_v2)
      = Cert.ReferenceIdeal.Read.val_main_v2 (F := Ideal) (m ((c : Thread nD τ).loc main_arg2)) (m ((c : Thread nD τ).loc main_arg3)) :=
  s0_v2 (W0 m ρ c) _ _ rfl rfl

theorem W2_v2 (c : Dev nD) :
    W2 m ρ c (Proc.devRef .tc main_v2)
      = Cert.ReferenceIdeal.Read.val_main_v2 (F := Ideal) (m ((c : Thread nD τ).loc main_arg2)) (m ((c : Thread nD τ).loc main_arg3)) :=
  (W2_keep m ρ c main_v2 (by decide)).trans (W1_v2 m ρ c)

theorem W2_v3 (c : Dev nD) :
    W2 m ρ c (Proc.devRef .tc main_v3)
      = Cert.ReferenceIdeal.Read.val_main_v3 (F := Ideal) (m ((c : Thread nD τ).loc main_arg2)) :=
  s1_v3 (W1 m ρ c) _ (W1_keep m ρ c main_arg2 (by decide))

theorem W3_v14 (c : Dev nD) :
    W3 m ρ c (Proc.devRef .tc main_v14)
      = val_main_v14 (F := Ideal) (m ((c : Thread nD τ).loc main_arg1)) (m ((c : Thread nD τ).loc main_arg2)) (m ((c : Thread nD τ).loc main_arg3)) (m ((c : Thread nD τ).loc main_arg4)) :=
  s2_v14 (W2 m ρ c) _ _ _ _ (W2_arg m ρ c main_arg1 (by decide) (by decide)) (W2_arg m ρ c main_arg4 (by decide) (by decide))
    (W2_v2 m ρ c) (W2_v3 m ρ c)

theorem W3_v12 (c : Dev nD) :
    W3 m ρ c (Proc.devRef .tc main_v12)
      = val_main_v12 (F := Ideal) (m ((c : Thread nD τ).loc main_arg1)) (m ((c : Thread nD τ).loc main_arg2)) (m ((c : Thread nD τ).loc main_arg3)) (m ((c : Thread nD τ).loc main_arg4)) :=
  s2_v12 (W2 m ρ c) _ _ _ _ (W2_arg m ρ c main_arg1 (by decide) (by decide)) (W2_arg m ρ c main_arg4 (by decide) (by decide))
    (W2_v2 m ρ c) (W2_v3 m ρ c)

theorem W3_v18 (c : Dev nD) :
    W3 m ρ c (Proc.devRef .tc main_v18)
      = Cert.ReferenceIdeal.Read.val_main_v57 (F := Ideal) (m ((c : Thread nD τ).loc main_arg7)) (m ((c : Thread nD τ).loc main_arg8)) :=
  s2_v18 (W2 m ρ c) _ _ (W2_arg m ρ c main_arg7 (by decide) (by decide)) (W2_arg m ρ c main_arg8 (by decide) (by decide))

theorem W4_v19 (c : Dev nD) :
    W4 m ρ c (Proc.devRef .tc main_v19)
      = Cert.ReferenceIdeal.Read.val_main_v58 (F := Ideal) (m ((c : Thread nD τ).loc main_arg7)) :=
  s3_v19 (W3 m ρ c) _ (W3_arg m ρ c main_arg7 (by decide) (by decide) (by decide))

/-- The graph words as a column. -/
theorem V5_v15 (c : Dev nD) (r : Fin 100000) :
    (V5 m ρ c main_v15 : IVec S100000x1 32) (ix2 r 0) = (m ((c : Thread nD τ).loc main_arg11) : IVec S100000 32) (ix1 r) := by
  have e : V5 m ρ c main_v15 = W3 m ρ c (Proc.devRef .tc main_v15) :=
    (W5_keep m ρ c main_v15 (by decide)).trans (W4_keep m ρ c main_v15 (by decide))
  rw [e]
  exact s2_v15 (W2 m ρ c) _ (W2_arg m ρ c main_arg11 (by decide) (by decide)) r

/-- The conditioning tables gamma and beta. -/
theorem V5_v14 (c : Dev nD) : V5 m ρ c main_v14 = val_main_v14 (F := Ideal) (m ((c : Thread nD τ).loc main_arg1)) (m ((c : Thread nD τ).loc main_arg2)) (m ((c : Thread nD τ).loc main_arg3)) (m ((c : Thread nD τ).loc main_arg4)) :=
  ((W5_keep m ρ c main_v14 (by decide)).trans (W4_keep m ρ c main_v14 (by decide))).trans (W3_v14 m ρ c)
theorem V5_v12 (c : Dev nD) : V5 m ρ c main_v12 = val_main_v12 (F := Ideal) (m ((c : Thread nD τ).loc main_arg1)) (m ((c : Thread nD τ).loc main_arg2)) (m ((c : Thread nD τ).loc main_arg3)) (m ((c : Thread nD τ).loc main_arg4)) :=
  ((W5_keep m ρ c main_v12 (by decide)).trans (W4_keep m ρ c main_v12 (by decide))).trans (W3_v12 m ρ c)
/-- The transposed weights of the two linear maps. -/
theorem V5_v23 (c : Dev nD) : V5 m ρ c main_v23 = val_main_v15 (F := Ideal) (m ((c : Thread nD τ).loc main_arg5)) :=
  s4_v23 (W4 m ρ c) _ (W4_arg m ρ c main_arg5 (by decide) (by decide) (by decide) (by decide))
theorem V5_v22 (c : Dev nD) : V5 m ρ c main_v22 = val_main_v61 (F := Ideal) (m ((c : Thread nD τ).loc main_arg7)) (m ((c : Thread nD τ).loc main_arg8)) :=
  s4_v22 (W4 m ρ c) _ _ ((W4_keep m ρ c main_v18 (by decide)).trans (W3_v18 m ρ c)) (W4_v19 m ρ c)

/-! ## The stretch between the two regions: the edge sum of the first region's output and the edge count -/

section Edges
variable (W : Valuation τ sig (Elt Ideal))

open Cert.ReferenceIdeal.Read in
/-- The edge sum of the node outputs `X` found in the first region's output buffer. -/
theorem s5_v38 (X : FVec Ideal S100000x128 .f32) (E : IVec S2x1600000 32)
    (hX : W (Proc.devRef .tc main_v24) = X) (hE : W (Proc.devRef .tc main_arg10) = E) :
    StableHlo.after hostOps1 W (Proc.devRef .tc main_v38) = Cert.Tail.aggOf X E := by
  after_results_simp
  rw [hX, hE]
  unfold Cert.Tail.aggOf val_main_v77 val_main_cst_10 val_main_v78 val_main_v69 val_main_v68 val_main_v75 val_main_v74
    val_main_v71 val_main_v73 val_main_v67 val_main_v66 val_main_v70 val_main_v72 val_main_c_8 val_main_c_9
  rfl

open Cert.ReferenceIdeal.Read in
/-- The edge count, reshaped to a column: row `j 0` of the column is entry `j 0` of the count. -/
theorem s5_v43 (E : IVec S2x1600000 32) (hE : W (Proc.devRef .tc main_arg10) = E) :
    StableHlo.after hostOps1 W (Proc.devRef .tc main_v43) = fun j => Cert.Tail.cntOf E (ix1 (j 0)) := by
  after_results_simp
  rw [hE]
  funext j
  have h1 : (j 1).val < 1 := (j 1).isLt
  refine (shapeCast_apply _ shapeCasts_S100000_S100000x1 j (ix1 (j 0)) ?_).trans ?_
  · rw [Shape.rowMajor_val_two, Shape.rowMajor_val_one]
    show (j 0).val = (j 0).val * 1 + (j 1).val
    omega
  · unfold Cert.Tail.cntOf val_main_v83 val_main_v81 val_main_cst_12 val_main_v82 val_main_v69 val_main_v68 val_main_v80
      val_main_cst_11
    rfl

end Edges

/-- The edge list, as launched, is what the stretch between the regions finds. -/
theorem W6_arg10 (c : Dev nD) : W6 m ρ c (Proc.devRef .tc main_arg10) = m ((c : Thread nD τ).loc main_arg10) :=
  (W6_of_ne m ρ c main_arg10 (by decide)).trans
    (W5_arg m ρ c main_arg10 (by decide) (by decide) (by decide) (by decide) (by decide))

/-- The second region's operands: the edge sum of the first region's output, and the edge count as a column. -/
theorem V7_v38 (c : Dev nD) : V7 m ρ c main_v38 = Cert.Tail.aggOf (V6 m ρ c main_v24) (m ((c : Thread nD τ).loc main_arg10)) :=
  s5_v38 (W6 m ρ c) _ _ rfl (W6_arg10 m ρ c)
theorem V7_v43 (c : Dev nD) : V7 m ρ c main_v43 = fun j => Cert.Tail.cntOf (m ((c : Thread nD τ).loc main_arg10)) (ix1 (j 0)) :=
  s5_v43 (W6 m ρ c) _ (W6_arg10 m ρ c)

end Cert.KernelIdeal.HostRead

end
-- ==== Proof.Assemble.lean ====
/-
  The kernel's result array as ONE function of the argument arrays: the second region's clipped edge mean of the edge sum of
  the first region's node outputs, the node outputs the reference's way once every graph word is known to be in range.
-/
import proofs.«431239_j68453188763818_2_alg».proof.Proof.Gen.KernelIdeal.Frame
import proofs.«431239_j68453188763818_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«431239_j68453188763818_2_alg».proof.Proof.Gen.ReferenceIdeal.Read
import proofs.«431239_j68453188763818_2_alg».proof.Proof.Tail
import proofs.«431239_j68453188763818_2_alg».proof.Proof.SpecLaws
import proofs.«431239_j68453188763818_2_alg».proof.Proof.Region1
import proofs.«431239_j68453188763818_2_alg».proof.Proof.Region0Arr
import proofs.«431239_j68453188763818_2_alg».proof.Proof.HostRead
set_option maxRecDepth 16384

noncomputable section

open Idealize.ShloMosaic Idealize.ShloMosaic.TcCoe Idealize.SL.Sem Idealize.ShloMosaic.ValueIdx

open Idealize.ShloMosaic.Pipeline (Dat)
open Cert.KernelIdeal Cert.KernelIdeal.Gen

namespace Cert.KernelIdeal.Assemble

open Cert.ReferenceIdeal.Read (val_main_v14 val_main_v12 val_main_v15 val_main_v61)
open Cert.KernelIdeal.HostRead

variable (m : (ℓ : Loc nD τ sig) → Buf (Elt Ideal) ℓ) (ρ : Dev nD → PrngReg)

/-- The node outputs as the reference spells them, of the kernel's own argument arrays. -/
abbrev nodes (c : Dev nD) (g : Fin 100000 → Fin 64) : FVec Ideal (Cert.Spec.Sh2 100000 128) .f32 :=
  Cert.Spec.nodeAt (n := 100000) (m ((c : Thread nD τ).loc main_arg0)) g
    (val_main_v14 (F := Ideal) (m ((c : Thread nD τ).loc main_arg1)) (m ((c : Thread nD τ).loc main_arg2)) (m ((c : Thread nD τ).loc main_arg3)) (m ((c : Thread nD τ).loc main_arg4)))
    (val_main_v12 (F := Ideal) (m ((c : Thread nD τ).loc main_arg1)) (m ((c : Thread nD τ).loc main_arg2)) (m ((c : Thread nD τ).loc main_arg3)) (m ((c : Thread nD τ).loc main_arg4)))
    (val_main_v15 (F := Ideal) (m ((c : Thread nD τ).loc main_arg5))) (m ((c : Thread nD τ).loc main_arg6))
    (val_main_v61 (F := Ideal) (m ((c : Thread nD τ).loc main_arg7)) (m ((c : Thread nD τ).loc main_arg8))) (m ((c : Thread nD τ).loc main_arg9))

/-- What the first region leaves in its output array. -/
theorem nodes_eq (c : Dev nD) (g : Fin 100000 → Fin 64)
    (hg : ∀ r : Fin 100000, (m ((c : Thread nD τ).loc main_arg11) : IVec S100000 32) (ix1 r) = BitVec.ofNat 32 (g r).val) :
    V6 m ρ c main_v24 = nodes m c g := by
  have h2 : V6 m ρ c main_v24 = (dat0 (F := Ideal) (V5 m ρ) c).arrAt 8 cfg0.N := W6_arr m ρ c 8
  rw [h2, Cert.KernelIdeal.Region0Arr.region0_arr, V5_arg0, V5_v14, V5_v12, V5_v23, V5_arg6, V5_v22, V5_arg9]
  exact Cert.Spec.nodeOH_eq_nodeAt _ _ g (fun r => (V5_v15 m ρ c r).trans (hg r)) _ _ _ _ _ _

/-- The result array at the last boundary. -/
theorem result_eq (c : Dev nD) (g : Fin 100000 → Fin 64)
    (hg : ∀ r : Fin 100000, (m ((c : Thread nD τ).loc main_arg11) : IVec S100000 32) (ix1 r) = BitVec.ofNat 32 (g r).val) :
    W8 m ρ c (Proc.devRef .tc main_v44)
      = Cert.Spec.normRelu (n := 100000) (Cert.Tail.aggOf (nodes m c g) (m ((c : Thread nD τ).loc main_arg10)))
          (fun j => Cert.Tail.cntOf (m ((c : Thread nD τ).loc main_arg10)) (ix1 (j 0))) := by
  have h1 : W8 m ρ c (Proc.devRef .tc main_v44) = (dat1 (F := Ideal) (V7 m ρ) c).arrAt 2 cfg1.N := W8_arr m ρ c 2
  rw [h1, Cert.KernelIdeal.Region1.region1_arr, V7_v38, V7_v43, nodes_eq m ρ c g hg]
  rfl

end Cert.KernelIdeal.Assemble

end
-- ==== Proof.RefNodes.lean ====
/-
  The reference's node outputs, read index by index: the two linear maps, the layer normalisation and the conditioning, the
  tables indexed at the node's graph.
-/
import proofs.«431239_j68453188763818_2_alg».proof.Proof.Gen.ReferenceIdeal.Read
import proofs.«431239_j68453188763818_2_alg».proof.Proof.Spec
import proofs.«431239_j68453188763818_2_alg».proof.Proof.Tail
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

open Cert.ReferenceIdeal Cert.ReferenceIdeal.Read

namespace Cert.ReferenceIdeal.RefNodes

/-! ### Index equations: the composed index functions of the read lemmas are coordinate constructors -/

theorem lidx16_eq (r : Fin 100000) (c : Fin 64) (k : Fin 256) : lidx_main_v16 (ix2 r c) k = ix2 r k :=
  funext fun a => Fin.ext (by match a with | ⟨0, _⟩ => rfl | ⟨1, _⟩ => rfl)
theorem ridx16_eq (r : Fin 100000) (c : Fin 64) (k : Fin 256) : ridx_main_v16 (ix2 r c) k = ix2 k c :=
  funext fun a => Fin.ext (by match a with | ⟨0, _⟩ => rfl | ⟨1, _⟩ => rfl)
theorem idx18_eq (r : Fin 100000) (c : Fin 64) : idx_main_v17 (idx_main_v18 (ix2 r c)) = ix1 c :=
  funext fun a => Fin.ext (by match a with | ⟨0, _⟩ => rfl)

/-- (A) The first linear map, read at row r and hidden unit c. -/
theorem v19_at (x0 : (⟨S100000x256, .f32⟩ : BufTy).Contents (Elt Ideal)) (x5 : (⟨S64x256, .f32⟩ : BufTy).Contents (Elt Ideal))
    (x6 : (⟨S64, .f32⟩ : BufTy).Contents (Elt Ideal)) (r : Fin 100000) (c : Fin 64) :
    val_main_v19 (F := Ideal) x0 x5 x6 (ix2 r c)
      = Cert.Spec.hid (n := 100000) x0 (val_main_v15 (F := Ideal) x5) x6 r c := by
  rw [val_main_v19_apply, val_main_v16_apply, val_main_v18_apply, val_main_v17_apply, idx18_eq]
  unfold Cert.Spec.hid
  simp only [lidx16_eq, ridx16_eq, Ideal.addf_def]

theorem idx20_eq (r : Fin 100000) (k : Fin 64) : idx_main_v20 (ix1 r) k = ix2 r k :=
  funext fun a => Fin.ext (by match a with | ⟨0, _⟩ => rfl | ⟨1, _⟩ => rfl)
theorem idx27_eq (r : Fin 100000) (k : Fin 64) : idx_main_v27 (ix1 r) k = ix2 r k :=
  funext fun a => Fin.ext (by match a with | ⟨0, _⟩ => rfl | ⟨1, _⟩ => rfl)
theorem idx21_eq (r : Fin 100000) : idx_main_v21 (ix2 r (0 : Fin 1)) = ix1 r :=
  funext fun a => Fin.ext (by match a with | ⟨0, _⟩ => rfl)
theorem idx28_eq (r : Fin 100000) : idx_main_v28 (ix2 r (0 : Fin 1)) = ix1 r :=
  funext fun a => Fin.ext (by match a with | ⟨0, _⟩ => rfl)
theorem idx24_eq (r : Fin 100000) (c : Fin 64) : idx_main_v24 (ix2 r c) = ix2 r (0 : Fin 1) :=
  funext fun a => Fin.ext (by match a with | ⟨0, _⟩ => rfl | ⟨1, _⟩ => rfl)
theorem idx31_eq (r : Fin 100000) (c : Fin 64) : idx_main_v31 (ix2 r c) = ix2 r (0 : Fin 1) :=
  funext fun a => Fin.ext (by match a with | ⟨0, _⟩ => rfl | ⟨1, _⟩ => rfl)
theorem idx36_eq (r : Fin 100000) (c : Fin 64) : idx_main_v36 (ix2 r c) = ix2 r (0 : Fin 1) :=
  funext fun a => Fin.ext (by match a with | ⟨0, _⟩ => rfl | ⟨1, _⟩ => rfl)

/-- The mean over the 64 hidden units of row r: the float sum from 0, divided by the literal 64. -/
theorem v23_at (x0 : (⟨S100000x256, .f32⟩ : BufTy).Contents (Elt Ideal)) (x5 : (⟨S64x256, .f32⟩ : BufTy).Contents (Elt Ideal))
    (x6 : (⟨S64, .f32⟩ : BufTy).Contents (Elt Ideal)) (r : Fin 100000) :
    val_main_v23 (F := Ideal) x0 x5 x6 (ix2 r (0 : Fin 1))
      = Cert.Spec.mean (Cert.Spec.hid (n := 100000) x0 (val_main_v15 (F := Ideal) x5) x6 r) := by
  rw [val_main_v23_apply, val_main_v21_apply, idx21_eq, val_main_v20_apply, val_main_v22_apply, val_main_cst_1_apply,
    val_main_cst_0_apply]
  simp only [idx20_eq, v19_at, Ideal.hostDivf_def, Ideal.ofBits_def, Ideal.ofBits_zero_f32, zero_add]
  rfl

/-- The variance of row r: the sum of the squared deviations from the mean, divided by the literal 64. -/
theorem v30_at (x0 : (⟨S100000x256, .f32⟩ : BufTy).Contents (Elt Ideal)) (x5 : (⟨S64x256, .f32⟩ : BufTy).Contents (Elt Ideal))
    (x6 : (⟨S64, .f32⟩ : BufTy).Contents (Elt Ideal)) (r : Fin 100000) :
    val_main_v30 (F := Ideal) x0 x5 x6 (ix2 r (0 : Fin 1))
      = Cert.Spec.var (Cert.Spec.hid (n := 100000) x0 (val_main_v15 (F := Ideal) x5) x6 r) := by
  rw [val_main_v30_apply, val_main_v28_apply, idx28_eq, val_main_v27_apply, val_main_v29_apply, val_main_cst_3_apply,
    val_main_cst_2_apply]
  simp only [idx27_eq, val_main_v26_apply, val_main_v25_apply, val_main_v24_apply, idx24_eq, v23_at, v19_at,
    Ideal.hostDivf_def, Ideal.mulf_def, Ideal.subf_def, Ideal.ofBits_def, Ideal.ofBits_zero_f32, zero_add]
  rfl

/-- (B) The normalised row the reference's way: the deviation from the mean over the root of variance plus epsilon. -/
theorem v37_at (x0 : (⟨S100000x256, .f32⟩ : BufTy).Contents (Elt Ideal)) (x5 : (⟨S64x256, .f32⟩ : BufTy).Contents (Elt Ideal))
    (x6 : (⟨S64, .f32⟩ : BufTy).Contents (Elt Ideal)) (r : Fin 100000) (c : Fin 64) :
    val_main_v37 (F := Ideal) x0 x5 x6 (ix2 r c)
      = Cert.Spec.xnR (Cert.Spec.hid (n := 100000) x0 (val_main_v15 (F := Ideal) x5) x6 r) c := by
  rw [val_main_v37_apply, val_main_v32_apply, val_main_v31_apply, idx31_eq, val_main_v36_apply, idx36_eq, val_main_v35_apply,
    val_main_v34_apply, val_main_v33_apply, val_main_cst_4_apply]
  simp only [v19_at, v23_at, v30_at, Ideal.hostDivf_def, Ideal.subf_def, Ideal.addf_def, Ideal.hostUnary_sqrt_def, Ideal.ofBits_def]
  rfl

/-- The take's dimension numbers: along the rows of a 64×64 table, one start word per result row. -/
abbrev gth := gather_S64x64_S100000x1_S100000x64_1_0_n_n_0_1_164

/-- A word below 64 reads the same signed and unsigned. -/
theorem toInt_toNat_small (g : Nat) (hg : g < 64) : (BitVec.ofNat 32 g).toInt.toNat = g := by
  have h : (BitVec.ofNat 32 g).toInt = (g : Int) := by
    rw [BitVec.toInt_eq_msb_cond, BitVec.msb_eq_false_iff_two_mul_lt.mpr (by simp [BitVec.toNat_ofNat]; omega)]
    simp [BitVec.toNat_ofNat]; omega
  rw [h]; rfl

/-- The start-index position a result index of the take reads: its row, at the column's one entry. -/
theorem gth_siIdx0 (r : Fin 100000) (c : Fin 64) (k : Fin gth.startIndexMap.length) :
    (gth.siIdx (ix2 r c) k (0 : Fin S100000x1.rank)).val = r.val := by
  unfold GatherDims.siIdx
  rw [dif_neg (by decide)]
  rfl
theorem gth_siIdx1 (r : Fin 100000) (c : Fin 64) (k : Fin gth.startIndexMap.length) :
    (gth.siIdx (ix2 r c) k (1 : Fin S100000x1.rank)).val = 0 := by
  unfold GatherDims.siIdx
  rw [dif_pos (by rfl)]
  have := k.isLt
  change k.val < 1 at this
  show k.val = 0
  omega
theorem gth_siIdx (r : Fin 100000) (c : Fin 64) (k : Fin gth.startIndexMap.length) : gth.siIdx (ix2 r c) k = ix2 r (0 : Fin 1) :=
  funext fun b => Fin.ext (by
    match b with
    | ⟨0, _⟩ => exact gth_siIdx0 r c k
    | ⟨1, _⟩ => exact gth_siIdx1 r c k)

/-- The operand index of the take on the row axis (the clamped start word) and on the column axis (the offset). -/
theorem gth_op0 (I : IVec S100000x1 32) (r : Fin 100000) (c : Fin 64) (g : Fin 64)
    (hI : I (ix2 r (0 : Fin 1)) = BitVec.ofNat 32 g.val) :
    (gth.operandIdx (ix2 r c) I (0 : Fin S64x64.rank)).val = g.val := by
  have hm : (0 : Fin S64x64.rank) ∈ gth.startIndexMap := by decide
  have hb : (0 : Fin S64x64.rank) ∉ gth.operandBatchingDims := by decide
  have hk : (0 : Fin S64x64.rank) ∉ gth.sKept := by decide
  simp only [GatherDims.operandIdx, GatherDims.batchCoord_eq_zero _ _ _ hb, GatherDims.offCoord_eq_zero _ _ _ hk,
    Nat.add_zero, GatherDims.start, dif_pos hm]
  rw [gth_siIdx, hI, toInt_toNat_small _ g.isLt]
  show min g.val (64 - 1) = g.val
  have := g.isLt
  omega
theorem gth_op1 (I : IVec S100000x1 32) (r : Fin 100000) (c : Fin 64) :
    (gth.operandIdx (ix2 r c) I (1 : Fin S64x64.rank)).val = c.val := by
  have hm : (1 : Fin S64x64.rank) ∉ gth.startIndexMap := by decide
  have hb : (1 : Fin S64x64.rank) ∉ gth.operandBatchingDims := by decide
  have hk : (1 : Fin S64x64.rank) ∈ gth.sKept := by decide
  simp only [GatherDims.operandIdx, GatherDims.batchCoord_eq_zero _ _ _ hb, Nat.add_zero, GatherDims.start, dif_neg hm,
    Nat.zero_add, GatherDims.offCoord, dif_pos hk]
  rfl

/-- The take along the rows of a 64-row table at a column of start words: the row the word names, when it is in range. -/
theorem gather_row {α : Type} (T : S64x64.Idx → α) (I : IVec S100000x1 32) (r : Fin 100000) (c : Fin 64) (g : Fin 64)
    (hI : I (ix2 r (0 : Fin 1)) = BitVec.ofNat 32 g.val) :
    Host.gather gth T I (ix2 r c) = T (ix2 g c) := by
  unfold Host.gather
  congr 1
  funext a
  apply Fin.ext
  match a with
  | ⟨0, _⟩ => exact gth_op0 I r c g hI
  | ⟨1, _⟩ => exact gth_op1 I r c

/-- A word below 64 is not negative read signed. -/
theorem slt_zero_small (g : Nat) (hg : g < 64) : IntOp.cmpi .slt (BitVec.ofNat 32 g) 0#32 = 0#1 := by
  have h : (BitVec.ofNat 32 g).toInt = (g : Int) := by
    rw [BitVec.toInt_eq_msb_cond, BitVec.msb_eq_false_iff_two_mul_lt.mpr (by simp [BitVec.toNat_ofNat]; omega)]
    simp [BitVec.toNat_ofNat]; omega
  have hz : (0#32 : BitVec 32).toInt = 0 := by decide
  unfold IntOp.cmpi
  simp only [BitVec.slt, h, hz]
  rw [decide_eq_false (by omega)]
  rfl

theorem idx43_eq (r : Fin 100000) : idx_main_v43 (ix2 r (0 : Fin 1)) = ix1 r :=
  funext fun a => Fin.ext (by match a with | ⟨0, _⟩ => rfl)
theorem idx51_eq (r : Fin 100000) : idx_main_v51 (ix2 r (0 : Fin 1)) = ix1 r :=
  funext fun a => Fin.ext (by match a with | ⟨0, _⟩ => rfl)

/-- The start word of row r (the graph word, 64 added when negative) is the graph word itself when it is in range. -/
theorem v43_at (x11 : (⟨S100000, .i32⟩ : BufTy).Contents (Elt Ideal)) (r : Fin 100000) (g : Fin 64)
    (h : x11 (ix1 r) = BitVec.ofNat 32 g.val) :
    val_main_v43 (F := Ideal) x11 (ix2 r (0 : Fin 1)) = BitVec.ofNat 32 g.val := by
  rw [val_main_v43_apply, idx43_eq, val_main_v42_apply, val_main_v39_apply, val_main_v38_apply, val_main_c_apply, h,
    slt_zero_small _ g.isLt, select_zero]
theorem v51_at (x11 : (⟨S100000, .i32⟩ : BufTy).Contents (Elt Ideal)) (r : Fin 100000) (g : Fin 64)
    (h : x11 (ix1 r) = BitVec.ofNat 32 g.val) :
    val_main_v51 (F := Ideal) x11 (ix2 r (0 : Fin 1)) = BitVec.ofNat 32 g.val := by
  rw [val_main_v51_apply, idx51_eq, val_main_v50_apply, val_main_v47_apply, val_main_v46_apply, val_main_c_6_apply, h,
    slt_zero_small _ g.isLt, select_zero]

/-- (C) The two takes: row r reads the tables at its graph's row. -/
theorem v44_at (x1 : (⟨S64x512, .f32⟩ : BufTy).Contents (Elt Ideal)) (x2 : (⟨S128x512, .f32⟩ : BufTy).Contents (Elt Ideal))
    (x3 x4 : (⟨S128, .f32⟩ : BufTy).Contents (Elt Ideal)) (x11 : (⟨S100000, .i32⟩ : BufTy).Contents (Elt Ideal))
    (r : Fin 100000) (g : Fin 64) (h : x11 (ix1 r) = BitVec.ofNat 32 g.val) (c : Fin 64) :
    val_main_v44 (F := Ideal) x1 x2 x3 x4 x11 (ix2 r c) = val_main_v14 (F := Ideal) x1 x2 x3 x4 (ix2 g c) := by
  unfold val_main_v44
  exact gather_row _ _ r c g (v43_at x11 r g h)
theorem v52_at (x1 : (⟨S64x512, .f32⟩ : BufTy).Contents (Elt Ideal)) (x2 : (⟨S128x512, .f32⟩ : BufTy).Contents (Elt Ideal))
    (x3 x4 : (⟨S128, .f32⟩ : BufTy).Contents (Elt Ideal)) (x11 : (⟨S100000, .i32⟩ : BufTy).Contents (Elt Ideal))
    (r : Fin 100000) (g : Fin 64) (h : x11 (ix1 r) = BitVec.ofNat 32 g.val) (c : Fin 64) :
    val_main_v52 (F := Ideal) x1 x2 x3 x4 x11 (ix2 r c) = val_main_v12 (F := Ideal) x1 x2 x3 x4 (ix2 g c) := by
  unfold val_main_v52
  exact gather_row _ _ r c g (v51_at x11 r g h)

/-- The conditioned and clipped row: gamma at the graph's row times the normalised row, plus beta there, clipped below at 0. -/
theorem v54_at (x0 : (⟨S100000x256, .f32⟩ : BufTy).Contents (Elt Ideal)) (x1 : (⟨S64x512, .f32⟩ : BufTy).Contents (Elt Ideal))
    (x2 : (⟨S128x512, .f32⟩ : BufTy).Contents (Elt Ideal)) (x3 x4 : (⟨S128, .f32⟩ : BufTy).Contents (Elt Ideal))
    (x5 : (⟨S64x256, .f32⟩ : BufTy).Contents (Elt Ideal)) (x6 : (⟨S64, .f32⟩ : BufTy).Contents (Elt Ideal))
    (x11 : (⟨S100000, .i32⟩ : BufTy).Contents (Elt Ideal))
    (r : Fin 100000) (g : Fin 64) (h : x11 (ix1 r) = BitVec.ofNat 32 g.val) (c : Fin 64) :
    val_main_v54 (F := Ideal) x0 x1 x2 x3 x4 x5 x6 x11 (ix2 r c)
      = Cert.Spec.actAt (val_main_v14 (F := Ideal) x1 x2 x3 x4) (val_main_v12 (F := Ideal) x1 x2 x3 x4) g
          (Cert.Spec.xnR (Cert.Spec.hid (n := 100000) x0 (val_main_v15 (F := Ideal) x5) x6 r)) c := by
  rw [val_main_v54_apply, val_main_v53_apply, val_main_v45_apply, val_main_call1_v0_apply, val_main_call1_cst_apply,
    v44_at x1 x2 x3 x4 x11 r g h, v52_at x1 x2 x3 x4 x11 r g h, v37_at]
  rfl

theorem lidx62_eq (r : Fin 100000) (o : Fin 128) (k : Fin 64) : lidx_main_v62 (ix2 r o) k = ix2 r k :=
  funext fun a => Fin.ext (by match a with | ⟨0, _⟩ => rfl | ⟨1, _⟩ => rfl)
theorem ridx62_eq (r : Fin 100000) (o : Fin 128) (k : Fin 64) : ridx_main_v62 (ix2 r o) k = ix2 k o :=
  funext fun a => Fin.ext (by match a with | ⟨0, _⟩ => rfl | ⟨1, _⟩ => rfl)
theorem idx64_eq (r : Fin 100000) (o : Fin 128) : idx_main_v63 (idx_main_v64 (ix2 r o)) = ix1 o :=
  funext fun a => Fin.ext (by match a with | ⟨0, _⟩ => rfl)

/-- The reference's node outputs are the row function, the tables read at each node's graph, when every graph word is in range. -/
theorem ref_nodes (x0 : (⟨S100000x256, .f32⟩ : BufTy).Contents (Elt Ideal)) (x1 : (⟨S64x512, .f32⟩ : BufTy).Contents (Elt Ideal)) (x2 : (⟨S128x512, .f32⟩ : BufTy).Contents (Elt Ideal)) (x3 x4 : (⟨S128, .f32⟩ : BufTy).Contents (Elt Ideal)) (x5 : (⟨S64x256, .f32⟩ : BufTy).Contents (Elt Ideal)) (x6 : (⟨S64, .f32⟩ : BufTy).Contents (Elt Ideal)) (x7 : (⟨S128x64, .f32⟩ : BufTy).Contents (Elt Ideal)) (x8 x9 : (⟨S128, .f32⟩ : BufTy).Contents (Elt Ideal)) (x11 : (⟨S100000, .i32⟩ : BufTy).Contents (Elt Ideal))
    (g : Fin 100000 → Fin 64) (hg : ∀ r : Fin 100000, x11 (ix1 r) = BitVec.ofNat 32 (g r).val) :
    val_main_v65 (F := Ideal) x0 x1 x2 x3 x4 x5 x6 x7 x8 x9 x11
      = Cert.Spec.nodeAt (n := 100000) x0 g (val_main_v14 (F := Ideal) x1 x2 x3 x4) (val_main_v12 (F := Ideal) x1 x2 x3 x4) (val_main_v15 (F := Ideal) x5) x6
          (val_main_v61 (F := Ideal) x7 x8) x9 := by
  funext j
  obtain ⟨r, o, rfl⟩ : ∃ (r : Fin 100000) (o : Fin 128), j = ix2 r o := ⟨j 0, j 1, eq_ix2 j⟩
  rw [val_main_v65_apply, val_main_v62_apply, val_main_v64_apply, val_main_v63_apply, idx64_eq]
  simp only [lidx62_eq, ridx62_eq, v54_at x0 x1 x2 x3 x4 x5 x6 x11 r (g r) (hg r), Ideal.addf_def]
  rfl

end Cert.ReferenceIdeal.RefNodes

end
-- ==== Proof.RefResult.lean ====
/-
  The reference's last operations, read index by index: the edge sum divided by the edge count clipped below at 1, clipped below at 0.
-/
import proofs.«431239_j68453188763818_2_alg».proof.Proof.Gen.ReferenceIdeal.Read
import proofs.«431239_j68453188763818_2_alg».proof.Proof.Spec
import proofs.«431239_j68453188763818_2_alg».proof.Proof.Tail
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

open Cert.ReferenceIdeal Cert.ReferenceIdeal.Read

namespace Cert.ReferenceIdeal.RefResult

/-- The reference's result is the clipped edge mean of its node outputs. -/
theorem ref_result (x0 : (⟨S100000x256, .f32⟩ : BufTy).Contents (Elt Ideal)) (x1 : (⟨S64x512, .f32⟩ : BufTy).Contents (Elt Ideal)) (x2 : (⟨S128x512, .f32⟩ : BufTy).Contents (Elt Ideal)) (x3 x4 : (⟨S128, .f32⟩ : BufTy).Contents (Elt Ideal)) (x5 : (⟨S64x256, .f32⟩ : BufTy).Contents (Elt Ideal)) (x6 : (⟨S64, .f32⟩ : BufTy).Contents (Elt Ideal)) (x7 : (⟨S128x64, .f32⟩ : BufTy).Contents (Elt Ideal)) (x8 x9 : (⟨S128, .f32⟩ : BufTy).Contents (Elt Ideal)) (x10 : (⟨S2x1600000, .i32⟩ : BufTy).Contents (Elt Ideal)) (x11 : (⟨S100000, .i32⟩ : BufTy).Contents (Elt Ideal)) :
    val_main_v89 (F := Ideal) x0 x1 x2 x3 x4 x5 x6 x7 x8 x9 x10 x11
      = Cert.Spec.normRelu (n := 100000) (Cert.Tail.aggOf (val_main_v65 (F := Ideal) x0 x1 x2 x3 x4 x5 x6 x7 x8 x9 x11) x10)
          (fun j => Cert.Tail.cntOf x10 (ix1 (j 0))) := by
  funext j
  obtain ⟨r, o, rfl⟩ : ∃ (r : Fin 100000) (o : Fin 128), j = ix2 r o := ⟨j 0, j 1, eq_ix2 j⟩
  -- The entry (r, o), outermost operation first: a maximum with the literal 0 of a quotient whose divisor is the
  -- maximum of the edge count and the literal 1, the count broadcast along the 128 columns.
  rw [val_main_v89_apply, val_main_call3_v0_apply, val_main_call3_cst_apply, val_main_v88_apply,
    val_main_v87_apply, val_main_v86_apply, val_main_v85_apply, val_main_v84_apply, val_main_cst_13_apply,
    Cert.Tail.v79_eq]
  -- The two broadcasts [n] → [n,1] → [n,128] read the count at row r.
  have hidx : idx_main_v86 (idx_main_v87 (ix2 r o)) = ix1 r :=
    funext fun a => match a with | ⟨0, _⟩ => rfl
  rw [hidx]
  unfold Cert.Tail.cntOf
  -- The edge sum and the edge count enter only through their entries: they are carried as arbitrary arrays.
  generalize Cert.Tail.aggOf (val_main_v65 (F := Ideal) x0 x1 x2 x3 x4 x5 x6 x7 x8 x9 x11) x10 = A
  generalize val_main_v83 (F := Ideal) x10 = C
  -- On the extended reals the host quotient is the quotient and the maximum is the order's maximum.
  rw [Ideal.maximumf_def, Ideal.hostDivf_def, Ideal.maximumf_def, Ideal.ofBits_def, Ideal.ofBits_def]
  unfold Cert.Spec.normRelu Cert.Spec.one Cert.Spec.zero
  -- Both sides are now the same expression; the column's entry (r, 0) is the count at r.
  rfl

end Cert.ReferenceIdeal.RefResult

end
-- ==== Proof.PreDecode.lean ====
/-
  The precondition, read: every graph word of the last argument is one of 0 … 63.
-/
import proofs.«431239_j68453188763818_2_alg».proof.Defs
import proofs.«431239_j68453188763818_2_alg».proof.Proof.Gen.Pre_finite_inputs
import Idealize.ShloMosaic.Lib.ReduceAll
import Idealize.ShloMosaic.Lib.StableHlo.Predicate
import Idealize.ShloMosaic.Lib.ValueIdx
set_option maxRecDepth 16384

noncomputable section

open Idealize.ShloMosaic Idealize.ShloMosaic.TcCoe Idealize.SL.Sem Idealize.ShloMosaic.ValueIdx

namespace Cert.PreDecode

/-- A 32-bit word that tests nonnegative and below 64, both signed, is a number below 64:
    signed and unsigned readings agree on the lower half of the words, and a word of the upper
    half reads negative. -/
theorem word_lt (w : BitVec 32) (h0 : IntOp.cmpi .sge w 0#32 = 1#1) (h1 : IntOp.cmpi .slt w 64#32 = 1#1) :
    w.toNat < 64 := by
  rw [IntOp.cmpi_sge, show (0#32 : BitVec 32).toInt = 0 from by decide] at h0
  rw [IntOp.cmpi_slt, show (64#32 : BitVec 32).toInt = 64 from by decide] at h1
  have hw := w.isLt
  rw [BitVec.toInt_eq_toNat_cond] at h0 h1
  split at h0 <;> omega

/-- A word below 64 is the 32-bit word of its own value. -/
theorem word_eq (w : BitVec 32) (h : w.toNat < 64) : w = BitVec.ofNat 32 w.toNat := by
  apply BitVec.eq_of_toNat_eq
  rw [BitVec.toNat_ofNat]
  omega

/-- The predicate is a conjunction of eleven bits; its last is the conjunction over all rows r of
    (0 ≤ x r) and (x r < 64), both signed. When the predicate is 1 the last bit is 1 (a conjunction
    that is 1 has both sides 1), so every row's bit is 1 (an all-reduction that is 1 met only 1s), so
    at each row both comparisons hold, against the broadcast constants 0 and 64. -/
theorem fn_last [Cert.Pre_finite_inputs.Facts]
    (a0 : FVec Ideal Cert.Pre_finite_inputs.S100000x256 .f32) (a1 : FVec Ideal Cert.Pre_finite_inputs.S64x512 .f32)
    (a2 : FVec Ideal Cert.Pre_finite_inputs.S128x512 .f32) (a3 a4 : FVec Ideal Cert.Pre_finite_inputs.S128 .f32)
    (a5 : FVec Ideal Cert.Pre_finite_inputs.S64x256 .f32) (a6 : FVec Ideal Cert.Pre_finite_inputs.S64 .f32)
    (a7 : FVec Ideal Cert.Pre_finite_inputs.S128x64 .f32) (a8 a9 : FVec Ideal Cert.Pre_finite_inputs.S128 .f32)
    (a10 : IVec Cert.Pre_finite_inputs.S2x1600000 32) (x : IVec Cert.Pre_finite_inputs.S100000 32)
    (h : Cert.Pre_finite_inputs.fn (F := Ideal) a0 a1 a2 a3 a4 a5 a6 a7 a8 a9 a10 x ix0 = 1#1) (r : Fin 100000) :
    (x (ix1 r)).toNat < 64 := by
  unfold Cert.Pre_finite_inputs.fn Cert.Pre_finite_inputs.fn_part1 Cert.Pre_finite_inputs.fn_part2
    Cert.Pre_finite_inputs.fn_part3 at h
  dsimp only at h
  -- the last bit of the outer conjunction
  obtain ⟨-, hall⟩ := IntOp.andi_eq_one.1 h
  -- the predicate's result is a scalar: it has one index, so every row reduces into it
  haveI : Subsingleton Cert.Pre_finite_inputs.S_.Idx := ⟨fun a b => funext fun d => d.elim0⟩
  have hrow := Host.reduce_andi_all _ _ _ _ _ hall (ix1 r)
  -- the two comparisons at row r
  obtain ⟨hge, hlt⟩ := IntOp.andi_eq_one.1 hrow
  exact word_lt (x (ix1 r)) hge hlt

/-- From the precondition's last conjunct: each graph word is the 32-bit word of a number below 64. -/
theorem graph_range [hP : Cert.Pre_finite_inputs.Facts]
    (m : (ℓ : Loc Cert.KernelIdeal.nD Cert.KernelIdeal.τ Cert.KernelIdeal.sig) → Buf (Elt Ideal) ℓ) (hpre : Cert.Pre_KernelIdeal m)
    (c : Dev Cert.KernelIdeal.nD) :
    ∃ g : Fin 100000 → Fin 64, ∀ r : Fin 100000,
      (m ((c.tc : Thread Cert.KernelIdeal.nD Cert.KernelIdeal.τ).loc Cert.KernelIdeal.main_arg11) : IVec Cert.KernelIdeal.S100000 32) (ix1 r) = BitVec.ofNat 32 (g r).val := by
  -- the predicate at its one index, on device c
  have h := congrFun (hpre c) ix0
  have hlt : ∀ r : Fin 100000,
      ((m ((c.tc : Thread Cert.KernelIdeal.nD Cert.KernelIdeal.τ).loc Cert.KernelIdeal.main_arg11) : IVec Cert.KernelIdeal.S100000 32) (ix1 r)).toNat < 64 :=
    fun r => fn_last _ _ _ _ _ _ _ _ _ _ _ _ h r
  exact ⟨fun r => ⟨_, hlt r⟩, fun r => word_eq _ (hlt r)⟩

end Cert.PreDecode

end
-- ==== Proof.lean ====
/-
  The certificate: the fused node transform (linear map, layer normalisation, conditioning by the node's graph, clipping,
  second linear map) followed by the clipped edge mean, computed by two kernels around a host gather and scatter-add,
  against the same computation written with array operations.

  On the extended reals the two programs differ in two places only.  The kernel scales the centred row by the reciprocal
  root of (variance + epsilon) where the reference divides by the root: the variance is a mean of squares, so the argument is
  positive and the two agree (at +∞ both give 0).  The kernel reads a node's row of the conditioning tables by multiplying
  with the one-hot row of the node's graph word, the reference by indexing: for a word in 0 … 63 the product has one
  nonzero term, and a zero factor annihilates every extended real; the precondition's last conjunct puts every word in
  that range.  Everything else is the same operations in the same order, so the edge aggregation is carried as one
  function of the node outputs and never opened.

  The frames of the two kernel programs are the generated ones; the reference's is its generated run with the result
  dropped; the idealization rewrote nothing, so `preserves` is `True`.
-/
import proofs.«431239_j68453188763818_2_alg».proof.Defs
import proofs.«431239_j68453188763818_2_alg».proof.Proof.Gen.Kernel
import proofs.«431239_j68453188763818_2_alg».proof.Proof.Gen.Kernel.Skeleton
import proofs.«431239_j68453188763818_2_alg».proof.Proof.Gen.Kernel.Launch
import proofs.«431239_j68453188763818_2_alg».proof.Proof.Gen.Kernel.Points
import proofs.«431239_j68453188763818_2_alg».proof.Proof.Gen.Kernel.Frame
import proofs.«431239_j68453188763818_2_alg».proof.Proof.Gen.KernelIdeal
import proofs.«431239_j68453188763818_2_alg».proof.Proof.Gen.KernelIdeal.Skeleton
import proofs.«431239_j68453188763818_2_alg».proof.Proof.Gen.KernelIdeal.Launch
import proofs.«431239_j68453188763818_2_alg».proof.Proof.Gen.KernelIdeal.Points
import proofs.«431239_j68453188763818_2_alg».proof.Proof.Gen.KernelIdeal.Frame
import proofs.«431239_j68453188763818_2_alg».proof.Proof.Gen.ReferenceIdeal
import proofs.«431239_j68453188763818_2_alg».proof.Proof.Gen.ReferenceIdeal.Run
import proofs.«431239_j68453188763818_2_alg».proof.Proof.Gen.ReferenceIdeal.Read
import proofs.«431239_j68453188763818_2_alg».proof.Proof.Gen.Pre_finite_inputs
import proofs.«431239_j68453188763818_2_alg».proof.Proof.KRun
import proofs.«431239_j68453188763818_2_alg».proof.Proof.Assemble
import proofs.«431239_j68453188763818_2_alg».proof.Proof.RefNodes
import proofs.«431239_j68453188763818_2_alg».proof.Proof.RefResult
import proofs.«431239_j68453188763818_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the clipped edge mean of the edge sum of the node outputs, the node outputs
    read the reference's way at the graphs the precondition gives. -/
theorem algebraic : Cert.algebraic_KernelIdeal_ReferenceIdeal := by
  intro m ρ m' ρ' hpre hagree
  choose g hg using fun c => Cert.PreDecode.graph_range m hpre c
  refine ⟨fun c => Cert.Spec.normRelu (n := 100000)
      (Cert.Tail.aggOf (Cert.KernelIdeal.Assemble.nodes m c (g c)) (m ((c.tc : Thread Cert.KernelIdeal.nD Cert.KernelIdeal.τ).loc Cert.KernelIdeal.main_arg10)))
      (fun j => Cert.Tail.cntOf (m ((c.tc : Thread Cert.KernelIdeal.nD Cert.KernelIdeal.τ).loc Cert.KernelIdeal.main_arg10)) (ix1 (j 0))), ?_, ?_⟩
  · exact (θ_run Cert.KernelIdeal.defs _ _).mono
      (fun _ h c => ⟨(h c).1.trans (Cert.KernelIdeal.Assemble.result_eq m ρ c (g c) (hg c)), (h c).2⟩)
      (Cert.KernelIdeal.ValueRun.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v89_eq, e0, e1, e2, e3, e4, e5, e6, e7, e8, e9, e10, e11,
      Cert.ReferenceIdeal.RefResult.ref_result,
      Cert.ReferenceIdeal.RefNodes.ref_nodes _ _ _ _ _ _ _ _ _ _ _ (g c) (hg c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
